-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S50x16 : Shape := ⟨2, ![50, 16]⟩
abbrev S256x272 : Shape := ⟨2, ![256, 272]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50x16 : S_.BroadcastsInDim S50x16 (![] : Fin 0 → Fin S50x16.rank)
  reducesTo_S50x16_S_d0_1 : S50x16.ReducesTo [0, 1] S_
  bcast_S_S256x272 : S_.BroadcastsInDim S256x272 (![] : Fin 0 → Fin S256x272.rank)
  reducesTo_S256x272_S_d0_1 : S256x272.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg2 : IVec S50000 32) (main_arg9 : FVec F S1x256 .f32) (main_v33 : IVec S_ 1) : IVec S_ 1 :=
  let main_v34 : FVec F S1x256 .f32 := Host.absf main_arg9
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_c_14 : IVec S_ 32 := constantI S_ 32 0#32
  let main_v39 : IVec S50000 32 := broadcastInDim S50000 ![] bcast_S_S50000 main_c_14
  let main_v40 : IVec S50000 1 := cmpi .sge main_arg2 main_v39
  let main_c_15 : IVec S_ 1 := constantI S_ 1 1#1
  let main_v41 : IVec S_ 1 := (fun x v => Host.reduce IntOp.andi x v reducesTo_S50000_S_d0 h_S_) main_v40 main_c_15
  let main_v42 : IVec S_ 1 := andi main_v38 main_v41
  let main_c_16 : IVec S_ 32 := constantI S_ 32 50#32
  let main_v43 : IVec S50000 32 := broadcastInDim S50000 ![] bcast_S_S50000 main_c_16
  let main_v44 : IVec S50000 1 := cmpi .slt main_arg2 main_v43
  let main_c_17 : IVec S_ 1 := constantI S_ 1 1#1
  let main_v45 : IVec S_ 1 := (fun x v => Host.reduce IntOp.andi x v reducesTo_S50000_S_d0 h_S_) main_v44 main_c_17
  let main_v46 : IVec S_ 1 := andi main_v42 main_v45
  main_v46

def fn_part1 {F : FTy → Type} [FloatOps F] (main_arg2 : IVec S50000 32) (main_arg6 : FVec F S256x272 .f32) (main_arg7 : FVec F S1x256 .f32) (main_arg8 : FVec F S1 .f32) (main_arg9 : FVec F S1x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x272 .f32 := Host.absf main_arg6
  let main_cst_6 : FVec F S_ .f32 := constant S_ .f32 0x7F800000#32
  let main_v20 : FVec F S256x272 .f32 := broadcastInDim S256x272 ![] bcast_S_S256x272 main_cst_6
  let main_v21 : IVec S256x272 1 := cmpf .olt main_v19 main_v20
  let main_c_7 : IVec S_ 1 := constantI S_ 1 1#1
  let main_v22 : IVec S_ 1 := (fun x v => Host.reduce IntOp.andi x v reducesTo_S256x272_S_d0_1 h_S_) main_v21 main_c_7
  let main_v23 : IVec S_ 1 := andi main_v18 main_v22
  let main_v24 : FVec F S1x256 .f32 := Host.absf main_arg7
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg2 main_arg9 main_v33

def fn {F : FTy → Type} [FloatOps F] (main_arg0 : FVec F S50000x256 .f32) (main_arg1 : IVec S2x800000 32) (main_arg2 : IVec S50000 32) (main_arg3 : FVec F S50x16 .f32) (main_arg4 : FVec F S256x272 .f32) (main_arg5 : FVec F S256 .f32) (main_arg6 : FVec F S256x272 .f32) (main_arg7 : FVec F S1x256 .f32) (main_arg8 : FVec F S1 .f32) (main_arg9 : FVec F S1x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50x16 .f32 := Host.absf main_arg3
  let main_cst_0 : FVec F S_ .f32 := constant S_ .f32 0x7F800000#32
  let main_v5 : FVec F S50x16 .f32 := broadcastInDim S50x16 ![] bcast_S_S50x16 main_cst_0
  let main_v6 : IVec S50x16 1 := cmpf .olt main_v4 main_v5
  let main_c_1 : IVec S_ 1 := constantI S_ 1 1#1
  let main_v7 : IVec S_ 1 := (fun x v => Host.reduce IntOp.andi x v reducesTo_S50x16_S_d0_1 h_S_) main_v6 main_c_1
  let main_v8 : IVec S_ 1 := andi main_v3 main_v7
  let main_v9 : FVec F S256x272 .f32 := Host.absf main_arg4
  let main_cst_2 : FVec F S_ .f32 := constant S_ .f32 0x7F800000#32
  let main_v10 : FVec F S256x272 .f32 := broadcastInDim S256x272 ![] bcast_S_S256x272 main_cst_2
  let main_v11 : IVec S256x272 1 := cmpf .olt main_v9 main_v10
  let main_c_3 : IVec S_ 1 := constantI S_ 1 1#1
  let main_v12 : IVec S_ 1 := (fun x v => Host.reduce IntOp.andi x v reducesTo_S256x272_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg6 main_arg7 main_arg8 main_arg9 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S50x16 : Shape := ⟨2, ![50, 16]⟩
abbrev S256x272 : Shape := ⟨2, ![256, 272]⟩
abbrev S256 : Shape := ⟨1, ![256]⟩
abbrev S1x256 : Shape := ⟨2, ![1, 256]⟩
abbrev S1 : Shape := ⟨1, ![1]⟩
abbrev S50000x1 : Shape := ⟨2, ![50000, 1]⟩
abbrev S50000x272 : Shape := ⟨2, ![50000, 272]⟩
abbrev S5000x256 : Shape := ⟨2, ![5000, 256]⟩
abbrev S5000x1 : Shape := ⟨2, ![5000, 1]⟩
abbrev S5000x272 : Shape := ⟨2, ![5000, 272]⟩
abbrev S5000x50 : Shape := ⟨2, ![5000, 50]⟩
abbrev S5000x16 : Shape := ⟨2, ![5000, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x272 : Shape := ⟨2, ![800000, 272]⟩
abbrev S272x256 : Shape := ⟨2, ![272, 256]⟩
abbrev S800000x256 : Shape := ⟨2, ![800000, 256]⟩
abbrev S256x1 : Shape := ⟨2, ![256, 1]⟩
abbrev S1x1 : Shape := ⟨2, ![1, 1]⟩

abbrev nBuf : Space → Nat
  | .hbm => 73
  | .vmem => 25
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S50x16, .f32⟩
  | .hbm, ⟨4, _⟩ => ⟨S256x272, .f32⟩
  | .hbm, ⟨5, _⟩ => ⟨S256, .f32⟩
  | .hbm, ⟨6, _⟩ => ⟨S256x272, .f32⟩
  | .hbm, ⟨7, _⟩ => ⟨S1x256, .f32⟩
  | .hbm, ⟨8, _⟩ => ⟨S1, .f32⟩
  | .hbm, ⟨9, _⟩ => ⟨S1x256, .f32⟩
  | .hbm, ⟨10, _⟩ => ⟨S50000x1, .i32⟩
  | .hbm, ⟨11, _⟩ => ⟨S50000x272, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x272, .f32⟩
  | .hbm, ⟨25, _⟩ => ⟨S_, .f32⟩
  | .hbm, ⟨26, _⟩ => ⟨S50000x272, .f32⟩
  | .hbm, ⟨27, _⟩ => ⟨S800000x1, .i32⟩
  | .hbm, ⟨28, _⟩ => ⟨S50000x272, .f32⟩
  | .hbm, ⟨29, _⟩ => ⟨S_, .f32⟩
  | .hbm, ⟨30, _⟩ => ⟨S800000x1, .f32⟩
  | .hbm, ⟨31, _⟩ => ⟨S_, .f32⟩
  | .hbm, ⟨32, _⟩ => ⟨S50000x1, .f32⟩
  | .hbm, ⟨33, _⟩ => ⟨S800000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x272, .f32⟩
  | .hbm, ⟨39, _⟩ => ⟨S50000x272, .f32⟩
  | .hbm, ⟨40, _⟩ => ⟨S272x256, .f32⟩
  | .hbm, ⟨41, _⟩ => ⟨S272x256, .f32⟩
  | .hbm, ⟨42, _⟩ => ⟨S1x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S_, .f32⟩
  | .hbm, ⟨58, _⟩ => ⟨S800000x1, .f32⟩
  | .hbm, ⟨59, _⟩ => ⟨S_, .f32⟩
  | .hbm, ⟨60, _⟩ => ⟨S50000x1, .f32⟩
  | .hbm, ⟨61, _⟩ => ⟨S800000x1, .i32⟩
  | .hbm, ⟨62, _⟩ => ⟨S50000x1, .f32⟩
  | .hbm, ⟨63, _⟩ => ⟨S_, .f32⟩
  | .hbm, ⟨64, _⟩ => ⟨S50000x1, .f32⟩
  | .hbm, ⟨65, _⟩ => ⟨S50000x1, .f32⟩
  | .hbm, ⟨66, _⟩ => ⟨S50000x256, .f32⟩
  | .hbm, ⟨67, _⟩ => ⟨S50000x256, .f32⟩
  | .hbm, ⟨68, _⟩ => ⟨S256x1, .f32⟩
  | .hbm, ⟨69, _⟩ => ⟨S256x1, .f32⟩
  | .hbm, ⟨70, _⟩ => ⟨S1x1, .f32⟩
  | .hbm, ⟨71, _⟩ => ⟨S50000x1, .f32⟩
  | .hbm, ⟨72, _⟩ => ⟨S50000, .f32⟩
  | .local _ .vmem, ⟨0, _⟩ => ⟨S5000x256, .f32⟩
  | .local _ .vmem, ⟨1, _⟩ => ⟨S5000x256, .f32⟩
  | .local _ .vmem, ⟨2, _⟩ => ⟨S5000x1, .i32⟩
  | .local _ .vmem, ⟨3, _⟩ => ⟨S5000x1, .i32⟩
  | .local _ .vmem, ⟨4, _⟩ => ⟨S50x16, .f32⟩
  | .local _ .vmem, ⟨5, _⟩ => ⟨S5000x272, .f32⟩
  | .local _ .vmem, ⟨6, _⟩ => ⟨S5000x272, .f32⟩
  | .local _ .vmem, ⟨7, _⟩ => ⟨S5000x272, .f32⟩
  | .local _ .vmem, ⟨8, _⟩ => ⟨S5000x272, .f32⟩
  | .local _ .vmem, ⟨9, _⟩ => ⟨S5000x272, .f32⟩
  | .local _ .vmem, ⟨10, _⟩ => ⟨S5000x272, .f32⟩
  | .local _ .vmem, ⟨11, _⟩ => ⟨S272x256, .f32⟩
  | .local _ .vmem, ⟨12, _⟩ => ⟨S1x256, .f32⟩
  | .local _ .vmem, ⟨13, _⟩ => ⟨S272x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S256x1, .f32⟩
  | .local _ .vmem, ⟨21, _⟩ => ⟨S1x1, .f32⟩
  | .local _ .vmem, ⟨22, _⟩ => ⟨S256x1, .f32⟩
  | .local _ .vmem, ⟨23, _⟩ => ⟨S5000x1, .f32⟩
  | .local _ .vmem, ⟨24, _⟩ => ⟨S5000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x272 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x272 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x272 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S272x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S272x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x50_d1_w32 : S5000x50.Iotas .tc 32 [1]
  broadcasts_S5000x1_S5000x50 : S5000x1.Broadcasts S5000x50
  natLt_1_32 : 1 < 32
  inb_S50x16_S50x16_0_0 : ∀ a, (![0, 0] : Fin 2 → Nat) a + S50x16.size a ≤ S50x16.size a
  h_S50x16 : 0 < S50x16.numel
  inb_S5000x256_S5000x256_0_0 : ∀ a, (![0, 0] : Fin 2 → Nat) a + S5000x256.size a ≤ S5000x256.size a
  h_S5000x256 : 0 < S5000x256.numel
  inb_S5000x272_S5000x256_0_0 : ∀ a, (![0, 0] : Fin 2 → Nat) a + S5000x256.size a ≤ S5000x272.size a
  inb_S5000x272_S5000x16_0_256 : ∀ a, (![0, 256] : Fin 2 → Nat) a + S5000x16.size a ≤ S5000x272.size a
  h_S5000x16 : 0 < S5000x16.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x272 : S_.BroadcastsInDim S50000x272 (![] : Fin 0 → Fin S50000x272.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x272_0_1 : S50000x1.BroadcastsInDim S50000x272 (![0, 1] : Fin 2 → Fin S50000x272.rank)
  transposes_S256x272_S272x256_1_0 : S256x272.Transposes [1, 0] S272x256
  shapeCasts_S256_S1x256 : S256.ShapeCasts S1x256
  inb_S5000x272_S5000x272_0_0 : ∀ a, (![0, 0] : Fin 2 → Nat) a + S5000x272.size a ≤ S5000x272.size a
  h_S5000x272 : 0 < S5000x272.numel
  shapeCasts_S5000x272_S5000x272 : S5000x272.ShapeCasts S5000x272
  bitsLt_bf16_f32 : FTy.bits .bf16 < FTy.bits .f32
  inb_S272x256_S272x256_0_0 : ∀ a, (![0, 0] : Fin 2 → Nat) a + S272x256.size a ≤ S272x256.size a
  h_S272x256 : 0 < S272x256.numel
  shapeCasts_S272x256_S272x256 : S272x256.ShapeCasts S272x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S1x256_S256x1_1_0 : S1x256.Transposes [1, 0] S256x1
  shapeCasts_S1_S1x1 : S1.ShapeCasts S1x1
  shapeCasts_S5000x256_S5000x256 : S5000x256.ShapeCasts S5000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S50000x1_S50000 : S50000x1.ShapeCasts S50000
  dot_S5000x50_S50x16_S5000x16_1_0_0_1_n_n_wf : DotDims.WF S5000x50 S50x16 S5000x16 [1] [0] [0] [1] [] []
  gather_S50000x272_S800000x1_S800000x272_1_0_n_n_0_1_1272_wf : GatherDims.WF S50000x272 S800000x1 S800000x272 [1] [0] [] [0] [] 1 ![1, 272]
  scatter_S50000x272_S800000x1_S800000x272_1_0_0_1_wf : ScatterDims.WF S50000x272 S800000x1 S800000x272 [1] [0] [0] 1
  scatter_S50000x1_S800000x1_S800000x1_1_0_0_1_wf : ScatterDims.WF S50000x1 S800000x1 S800000x1 [1] [0] [0] 1
  dot_S5000x272_S272x256_S5000x256_1_0_0_1_n_n_wf : DotDims.WF S5000x272 S272x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .i32 = 32 ∨ (Rect.block (s := S50000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x16.size a ≤ S50x16.size a
  hwx0_2 : ∀ i : grid0.Coords, EltTy.bits .f32 = 32 ∨ (Rect.block (s := S50x16) S50x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x272.size a ≤ S50000x272.size a
  hwx0_3 : ∀ i : grid0.Coords, EltTy.bits .f32 = 32 ∨ (Rect.block (s := S50000x272) S5000x272.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x272.size a ≤ S50000x272.size a
  hwx1_0 : ∀ i : grid1.Coords, EltTy.bits .f32 = 32 ∨ (Rect.block (s := S50000x272) S5000x272.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x272.size a ≤ S50000x272.size a
  hwx1_1 : ∀ i : grid1.Coords, EltTy.bits .f32 = 32 ∨ (Rect.block (s := S50000x272) S5000x272.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S272x256.size a ≤ S272x256.size a
  hwx1_2 : ∀ i : grid1.Coords, EltTy.bits .f32 = 32 ∨ (Rect.block (s := S272x256) S272x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S272x256.size a ≤ S272x256.size a
  hwx1_4 : ∀ i : grid1.Coords, EltTy.bits .f32 = 32 ∨ (Rect.block (s := S272x256) S272x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S256x1.size a
  hwx2_2 : ∀ i : grid2.Coords, EltTy.bits .f32 = 32 ∨ (Rect.block (s := S256x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S256x1.size a
  hwx2_4 : ∀ i : grid2.Coords, EltTy.bits .f32 = 32 ∨ (Rect.block (s := S256x1) S256x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .f32 = 32 ∨ (Rect.block (s := S50000x1) S5000x1.size (cc2_transform_5 i) (hinb2_5 i)).WholeWords (EltTy.packing .f32)

variable [Facts₀]

def dot_S5000x50_S50x16_S5000x16_1_0_0_1_n_n : DotDims S5000x50 S50x16 S5000x16 where
  lhsContracting := [1]
  rhsContracting := [0]
  lhsNonContracting := [0]
  rhsNonContracting := [1]
  lhsBatch := []
  rhsBatch := []
  wf := dot_S5000x50_S50x16_S5000x16_1_0_0_1_n_n_wf
def gather_S50000x272_S800000x1_S800000x272_1_0_n_n_0_1_1272 : GatherDims S50000x272 S800000x1 S800000x272 where
  offsetDims := [1]
  collapsedSliceDims := [0]
  operandBatchingDims := []
  startIndicesBatchingDims := []
  startIndexMap := [0]
  indexVectorDim := 1
  sliceSizes := ![1, 272]
  wf := gather_S50000x272_S800000x1_S800000x272_1_0_n_n_0_1_1272_wf
def scatter_S50000x272_S800000x1_S800000x272_1_0_0_1 : ScatterDims S50000x272 S800000x1 S800000x272 where
  updateWindowDims := [1]
  insertedWindowDims := [0]
  scatterDimsToOperandDims := [0]
  indexVectorDim := 1
  wf := scatter_S50000x272_S800000x1_S800000x272_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x272_S272x256_S5000x256_1_0_0_1_n_n : DotDims S5000x272 S272x256 S5000x256 where
  lhsContracting := [1]
  rhsContracting := [0]
  lhsNonContracting := [0]
  rhsNonContracting := [1]
  lhsBatch := []
  rhsBatch := []
  wf := dot_S5000x272_S272x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S50x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x272.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x272.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x272.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S272x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S272x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S256x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S256x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S50x16 : Shape := ⟨2, ![50, 16]⟩
abbrev S256x272 : Shape := ⟨2, ![256, 272]⟩
abbrev S256 : Shape := ⟨1, ![256]⟩
abbrev S1x256 : Shape := ⟨2, ![1, 256]⟩
abbrev S1 : Shape := ⟨1, ![1]⟩
abbrev S_ : Shape := ⟨0, ![]⟩
abbrev S50000x1 : Shape := ⟨2, ![50000, 1]⟩
abbrev S50000x16 : Shape := ⟨2, ![50000, 16]⟩
abbrev S50000x272 : Shape := ⟨2, ![50000, 272]⟩
abbrev S1x800000 : Shape := ⟨2, ![1, 800000]⟩
abbrev S800000 : Shape := ⟨1, ![800000]⟩
abbrev S800000x1 : Shape := ⟨2, ![800000, 1]⟩
abbrev S800000x272 : Shape := ⟨2, ![800000, 272]⟩
abbrev S272x256 : Shape := ⟨2, ![272, 256]⟩
abbrev S800000x256 : Shape := ⟨2, ![800000, 256]⟩
abbrev S256x1 : Shape := ⟨2, ![256, 1]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S50x16, .f32⟩
  | .hbm, ⟨4, _⟩ => ⟨S256x272, .f32⟩
  | .hbm, ⟨5, _⟩ => ⟨S256, .f32⟩
  | .hbm, ⟨6, _⟩ => ⟨S256x272, .f32⟩
  | .hbm, ⟨7, _⟩ => ⟨S1x256, .f32⟩
  | .hbm, ⟨8, _⟩ => ⟨S1, .f32⟩
  | .hbm, ⟨9, _⟩ => ⟨S1x256, .f32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S50000x16, .f32⟩
  | .hbm, ⟨19, _⟩ => ⟨S50000x272, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x272, .f32⟩
  | .hbm, ⟨33, _⟩ => ⟨S_, .f32⟩
  | .hbm, ⟨34, _⟩ => ⟨S50000x272, .f32⟩
  | .hbm, ⟨35, _⟩ => ⟨S800000x1, .i32⟩
  | .hbm, ⟨36, _⟩ => ⟨S50000x272, .f32⟩
  | .hbm, ⟨37, _⟩ => ⟨S_, .f32⟩
  | .hbm, ⟨38, _⟩ => ⟨S800000x1, .f32⟩
  | .hbm, ⟨39, _⟩ => ⟨S_, .f32⟩
  | .hbm, ⟨40, _⟩ => ⟨S50000x1, .f32⟩
  | .hbm, ⟨41, _⟩ => ⟨S800000x1, .i32⟩
  | .hbm, ⟨42, _⟩ => ⟨S50000x1, .f32⟩
  | .hbm, ⟨43, _⟩ => ⟨S_, .f32⟩
  | .hbm, ⟨44, _⟩ => ⟨S50000x1, .f32⟩
  | .hbm, ⟨45, _⟩ => ⟨S50000x1, .f32⟩
  | .hbm, ⟨46, _⟩ => ⟨S50000x272, .f32⟩
  | .hbm, ⟨47, _⟩ => ⟨S50000x272, .f32⟩
  | .hbm, ⟨48, _⟩ => ⟨S272x256, .f32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S272x256, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S50000x256, .f32⟩
  | .hbm, ⟨58, _⟩ => ⟨S50000x256, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S_, .f32⟩
  | .hbm, ⟨69, _⟩ => ⟨S50000x256, .f32⟩
  | .hbm, ⟨70, _⟩ => ⟨S800000x1, .i32⟩
  | .hbm, ⟨71, _⟩ => ⟨S50000x256, .f32⟩
  | .hbm, ⟨72, _⟩ => ⟨S_, .f32⟩
  | .hbm, ⟨73, _⟩ => ⟨S800000x1, .f32⟩
  | .hbm, ⟨74, _⟩ => ⟨S_, .f32⟩
  | .hbm, ⟨75, _⟩ => ⟨S50000x1, .f32⟩
  | .hbm, ⟨76, _⟩ => ⟨S800000x1, .i32⟩
  | .hbm, ⟨77, _⟩ => ⟨S50000x1, .f32⟩
  | .hbm, ⟨78, _⟩ => ⟨S_, .f32⟩
  | .hbm, ⟨79, _⟩ => ⟨S50000x1, .f32⟩
  | .hbm, ⟨80, _⟩ => ⟨S50000x1, .f32⟩
  | .hbm, ⟨81, _⟩ => ⟨S50000x256, .f32⟩
  | .hbm, ⟨82, _⟩ => ⟨S50000x256, .f32⟩
  | .hbm, ⟨83, _⟩ => ⟨S256x1, .f32⟩
  | .hbm, ⟨84, _⟩ => ⟨S50000x1, .f32⟩
  | .hbm, ⟨85, _⟩ => ⟨S1x1, .f32⟩
  | .hbm, ⟨86, _⟩ => ⟨S50000x1, .f32⟩
  | .hbm, ⟨87, _⟩ => ⟨S50000x1, .f32⟩
  | .hbm, ⟨88, _⟩ => ⟨S256x1, .f32⟩
  | .hbm, ⟨89, _⟩ => ⟨S50000x1, .f32⟩
  | .hbm, ⟨90, _⟩ => ⟨S50000x1, .f32⟩
  | .hbm, ⟨91, _⟩ => ⟨S50000, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call0_cst : Ref sig .tc := ⟨.hbm, 56, rfl⟩
abbrev main_call0_v0 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  concatenates_S50000x256_S50000x16_S50000x272_d1 : Shape.Concatenates [S50000x256, S50000x16] S50000x272 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x272 : S_.BroadcastsInDim S50000x272 (![] : Fin 0 → Fin S50000x272.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x272_0_1 : S50000x1.BroadcastsInDim S50000x272 (![0, 1] : Fin 2 → Fin S50000x272.rank)
  transposes_S256x272_S272x256_1_0 : S256x272.Transposes [1, 0] S272x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S1x256_S256x1_1_0 : S1x256.Transposes [1, 0] S256x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50x16_S50000x1_S50000x16_1_0_n_n_0_1_116_wf : GatherDims.WF S50x16 S50000x1 S50000x16 [1] [0] [] [0] [] 1 ![1, 16]
  gather_S50000x272_S800000x1_S800000x272_1_0_n_n_0_1_1272_wf : GatherDims.WF S50000x272 S800000x1 S800000x272 [1] [0] [] [0] [] 1 ![1, 272]
  scatter_S50000x272_S800000x1_S800000x272_1_0_0_1_wf : ScatterDims.WF S50000x272 S800000x1 S800000x272 [1] [0] [0] 1
  scatter_S50000x1_S800000x1_S800000x1_1_0_0_1_wf : ScatterDims.WF S50000x1 S800000x1 S800000x1 [1] [0] [0] 1
  dot_S50000x272_S272x256_S50000x256_1_0_0_1_n_n_wf : DotDims.WF S50000x272 S272x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x1_S50000x1_1_0_0_1_n_n_wf : DotDims.WF S50000x256 S256x1 S50000x1 [1] [0] [0] [1] [] []

variable [Facts₀]

def gather_S50x16_S50000x1_S50000x16_1_0_n_n_0_1_116 : GatherDims S50x16 S50000x1 S50000x16 where
  offsetDims := [1]
  collapsedSliceDims := [0]
  operandBatchingDims := []
  startIndicesBatchingDims := []
  startIndexMap := [0]
  indexVectorDim := 1
  sliceSizes := ![1, 16]
  wf := gather_S50x16_S50000x1_S50000x16_1_0_n_n_0_1_116_wf
def gather_S50000x272_S800000x1_S800000x272_1_0_n_n_0_1_1272 : GatherDims S50000x272 S800000x1 S800000x272 where
  offsetDims := [1]
  collapsedSliceDims := [0]
  operandBatchingDims := []
  startIndicesBatchingDims := []
  startIndexMap := [0]
  indexVectorDim := 1
  sliceSizes := ![1, 272]
  wf := gather_S50000x272_S800000x1_S800000x272_1_0_n_n_0_1_1272_wf
def scatter_S50000x272_S800000x1_S800000x272_1_0_0_1 : ScatterDims S50000x272 S800000x1 S800000x272 where
  updateWindowDims := [1]
  insertedWindowDims := [0]
  scatterDimsToOperandDims := [0]
  indexVectorDim := 1
  wf := scatter_S50000x272_S800000x1_S800000x272_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x272_S272x256_S50000x256_1_0_0_1_n_n : DotDims S50000x272 S272x256 S50000x256 where
  lhsContracting := [1]
  rhsContracting := [0]
  lhsNonContracting := [0]
  rhsNonContracting := [1]
  lhsBatch := []
  rhsBatch := []
  wf := dot_S50000x272_S272x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.Spec.lean ====
/-
  What the three kernels compute, as functions of whole arrays read at one index, over the extended reals.

  * the first kernel joins a node's 256 features with its time embedding: columns 0..255 of row r are x[r, ·];
    column 256 + q is the sum over the 50 table rows k of w(r, k) · table[k, q], where the weight w(r, k) is 1 when
    k is the node's time step and 0 otherwise (a one-hot row times the table);
  * the second is the first graph layer's dense part: max(Σ_k a[r,k]·wl[k,j] + Σ_k h[r,k]·wr[k,j] + b[0,j], 0);
  * the third is the scalar head: Σ_k a[r,k]·wl[k,0] + Σ_k h[r,k]·wr[k,0] + b[0,0].

  All sums are finite sums of extended reals; nothing here assumes finiteness of an entry.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with literal extents. -/
abbrev Mat (a b : Nat) : Type := (⟨2, ![a, b]⟩ : Shape).Idx → EReal
/-- A matrix of 32-bit words with literal extents. -/
abbrev IMat (a b : Nat) : Type := (⟨2, ![a, b]⟩ : Shape).Idx → BitVec 32

/-- The one-hot weight: 1 when the table row k is the time step t (compared as 32-bit words), else 0. -/
def hot (t : BitVec 32) (k : Fin 50) : EReal := if BitVec.ofNat 32 k.val = t then 1 else 0

/-- Row r, column j of the joined features. -/
def concatAt (x : Mat 50000 256) (ts : IMat 50000 1) (tab : Mat 50 16) (r : Fin 50000) (j : Fin 272) : EReal :=
  if h : j.val < 256 then x (ix2 r ⟨j.val, h⟩)
  else ∑ k : Fin 50, hot (ts (ix2 r (0 : Fin 1))) k * tab (ix2 k ⟨j.val - 256, by omega⟩)

/-- The joined features as one array. -/
def concatK (x : Mat 50000 256) (ts : IMat 50000 1) (tab : Mat 50 16) : Mat 50000 272 :=
  fun i => concatAt x ts tab ⟨(i 0).val, (i 0).isLt⟩ ⟨(i 1).val, (i 1).isLt⟩

theorem concatK_apply (x : Mat 50000 256) (ts : IMat 50000 1) (tab : Mat 50 16) (r : Fin 50000) (j : Fin 272) :
    concatK x ts tab (ix2 r j) = concatAt x ts tab r j := rfl

/-- Row r, column j of the first layer's dense part. -/
def linReluAt (a h : Mat 50000 272) (wl : Mat 272 256) (b : Mat 1 256) (wr : Mat 272 256) (r : Fin 50000) (j : Fin 256) : EReal :=
  max ((∑ k : Fin 272, a (ix2 r k) * wl (ix2 k j)) + (∑ k : Fin 272, h (ix2 r k) * wr (ix2 k j)) + b (ix2 (0 : Fin 1) j)) 0

/-- The first layer's dense part as one array. -/
def linReluK (a h : Mat 50000 272) (wl : Mat 272 256) (b : Mat 1 256) (wr : Mat 272 256) : Mat 50000 256 :=
  fun i => linReluAt a h wl b wr ⟨(i 0).val, (i 0).isLt⟩ ⟨(i 1).val, (i 1).isLt⟩

theorem linReluK_apply (a h : Mat 50000 272) (wl : Mat 272 256) (b : Mat 1 256) (wr : Mat 272 256) (r : Fin 50000) (j : Fin 256) :
    linReluK a h wl b wr (ix2 r j) = linReluAt a h wl b wr r j := rfl

/-- Row r of the scalar head. -/
def headAt (a h : Mat 50000 256) (wl : Mat 256 1) (b : Mat 1 1) (wr : Mat 256 1) (r : Fin 50000) : EReal :=
  (∑ k : Fin 256, a (ix2 r k) * wl (ix2 k (0 : Fin 1))) + (∑ k : Fin 256, h (ix2 r k) * wr (ix2 k (0 : Fin 1)))
    + b (ix2 (0 : Fin 1) (0 : Fin 1))

/-- The scalar head as one array (a column). -/
def headK (a h : Mat 50000 256) (wl : Mat 256 1) (b : Mat 1 1) (wr : Mat 256 1) : Mat 50000 1 :=
  fun i => headAt a h wl b wr ⟨(i 0).val, (i 0).isLt⟩

theorem headK_apply (a h : Mat 50000 256) (wl : Mat 256 1) (b : Mat 1 1) (wr : Mat 256 1) (r : Fin 50000) (q : Fin 1) :
    headK a h wl b wr (ix2 r q) = headAt a h wl b wr r := rfl

end Cert.Spec

end
-- ==== Proof.Region0.lean ====
import proofs.«407131_j35287451304625_1_alg».proof.Proof.KernelIdealFrame
import proofs.«407131_j35287451304625_1_alg».proof.Proof.Spec
import Idealize.ShloMosaic.Lib.Pipeline.Value
import Idealize.ShloMosaic.PureOps.Ideal.Laws
set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/- The contents of the core's buffers when the kernel is entered: a parameter. -/
variable (V : (c : Dev nD) → (b : Ref sig .tc) → Buf (Elt Ideal) ((c : Thread nD τ).loc b))

/-! ## The output block after one grid point

The body writes the block of 5000 rows by 272 columns in two stores: columns 0..255 receive the block of x,
columns 256..271 receive the time embedding of the block's rows. Read back, the block is one function of its index. -/

section Block
variable {F : FTy → Type} [FloatOps F]

theorem zero2 : (![0, 0] : Fin 2 → Nat) = fun _ => 0 := funext fun a => by fin_cases a <;> rfl

/-- A block of features (256 columns) and a block of embeddings (16 columns) side by side: 272 columns. -/
def joined (x : Vec F S5000x256 .f32) (p : Vec F S5000x16 .f32) : Vec F S5000x272 .f32 := fun y =>
  if h : (y 1).val < 256 then x (ix2 (⟨(y 0).val, (y 0).isLt⟩ : Fin 5000) (⟨(y 1).val, h⟩ : Fin 256))
  else p (ix2 (⟨(y 0).val, (y 0).isLt⟩ : Fin 5000) (⟨(y 1).val - 256, by have := (y 1).isLt; change (y 1).val < 272 at this; omega⟩ : Fin 16))

/-- On a column below 256 the joined block reads the features at the same row and column. -/
theorem joined_left (x : Vec F S5000x256 .f32) (p : Vec F S5000x16 .f32) (y : S5000x272.Idx) (z : S5000x256.Idx)
    (h0 : (z 0).val = (y 0).val) (h1 : (z 1).val = (y 1).val) : joined x p y = x z := by
  have hz : (z 1).val < 256 := (z 1).isLt
  unfold joined
  rw [dif_pos (show (y 1).val < 256 by omega)]
  exact congrArg x (funext fun a => Fin.ext (match a with | ⟨0, _⟩ => h0.symm | ⟨1, _⟩ => h1.symm))

/-- On a column from 256 on it reads the embeddings at the same row, 256 columns to the left. -/
theorem joined_right (x : Vec F S5000x256 .f32) (p : Vec F S5000x16 .f32) (y : S5000x272.Idx) (z : S5000x16.Idx)
    (h0 : (z 0).val = (y 0).val) (h1 : (z 1).val + 256 = (y 1).val) : joined x p y = p z := by
  unfold joined
  rw [dif_neg (show ¬(y 1).val < 256 by omega)]
  exact congrArg p (funext fun a => Fin.ext (match a with
    | ⟨0, _⟩ => h0.symm
    | ⟨1, _⟩ => (by show (y 1).val - 256 = (z 1).val; omega)))

/-- What the body leaves in the output's staging buffer: the block of x joined with the payload of the block of time
    steps and the table. The two stores tile the block; each store's value is the joined block under its rectangle. -/
theorem out_eq (c : Dev nD) (i : grid0.Coords) (a1 : Memref sig .tc .vmem S5000x256 .f32) (h1 : a1.IsWhole)
    (a2 : Memref sig .tc .vmem S5000x1 .i32) (h2 : a2.IsWhole) (a3 : Memref sig .tc .vmem S50x16 .f32) (h3 : a3.IsWhole)
    (a4 : Memref sig .tc .vmem S5000x272 .f32) (h4 : a4.IsWhole)
    (x0 : Vec F S5000x256 .f32) (x1 : Vec F S5000x1 .i32) (x2 : Vec F S50x16 .f32) :
    out0_A_3 c i a1 h1 a2 h2 a3 h3 a4 h4 x0 x1 x2 = joined x0 (k0_pay1 x1 x2) := by
  unfold out0_A_3
  rw [View.read_writes_eq_canon _ _ _ (cover0_A_3 c i a1 h1 a2 h2 a3 h3 a4 h4 x0 x1 x2)]
  funext y
  refine View.canon_apply_of_pieces (joined x0 (k0_pay1 x1 x2)) _ ?_ y (cover0_A_3 c i a1 h1 a2 h2 a3 h3 a4 h4 x0 x1 x2 y)
  unfold kernelRun0_A
  dsimp only
  simp only [View.readAt_eq_ld, h1.read_unread, h2.read_unread, h3.read_unread, View.ld_unit_zero (S := S5000x256) zero2,
    View.ld_unit_zero (S := S5000x1) zero2, View.ld_unit_zero (S := S50x16) zero2]
  refine List.forall_mem_cons.mpr ⟨?_, List.forall_mem_cons.mpr ⟨?_, fun _ h => absurd h List.not_mem_nil⟩⟩
  · intro z
    refine (joined_right x0 (k0_pay1 x1 x2) _ z ?_ ?_).symm
    · show (z 0).val = 0 + 1 * (z 0).val; omega
    · show (z 1).val + 256 = 256 + 1 * (z 1).val; omega
  · intro z
    refine (joined_left x0 (k0_pay1 x1 x2) _ z ?_ ?_).symm
    · show (z 0).val = 0 + 1 * (z 0).val; omega
    · show (z 1).val = 0 + 1 * (z 1).val; omega

end Block

/-! ## The time embedding of a block, entry by entry

Over the extended reals the payload of the second store is a sum over the 50 table rows: the weight of row k at
node r is 1 when k is the node's time step and 0 otherwise, built by comparing a column count with the time steps,
widening the bit and reading it as a real. -/

section Embedding

/-- The comparison bit of k against t, widened to 32 bits and read as a signed integer, is the one-hot weight. -/
theorem weight_eq (t : BitVec 32) (k : Fin 50) :
    (FloatOps.sitofp (F := Ideal) .f32 ((IntOp.cmpi .eq (BitVec.ofNat 32 k.val) t).setWidth 32) : EReal) = Cert.Spec.hot t k := by
  unfold Cert.Spec.hot IntOp.cmpi
  show (((BitVec.setWidth 32 (BitVec.ofBool (BitVec.ofNat 32 k.val == t))).toInt : ℝ) : EReal) = _
  by_cases h : BitVec.ofNat 32 k.val = t
  · rw [if_pos h, show (BitVec.ofNat 32 k.val == t) = true from beq_iff_eq.mpr h,
      show (BitVec.setWidth 32 (BitVec.ofBool true)).toInt = 1 from by decide]
    norm_num
  · rw [if_neg h, show (BitVec.ofNat 32 k.val == t) = false from beq_eq_false_iff_ne.mpr h,
      show (BitVec.setWidth 32 (BitVec.ofBool false)).toInt = 0 from by decide]
    norm_num

/-- The one-hot matrix of a block of time steps, read at row r and column k. -/
theorem onehot_apply (v0 : Vec Ideal S5000x1 .i32) (hs : S5000x1.ShapeCasts S5000x1) (hi : S5000x50.Iotas .tc 32 [1])
    (hb : S5000x1.Broadcasts S5000x50) (he : 1 < 32) (r : Fin 5000) (k : Fin 50) :
    (sitofp .f32 (extui 32 (cmpi .eq (iota .tc S5000x50 32 [1] hi) (broadcastTo S5000x50 (shapeCast S5000x1 v0 hs) hb)) he) : FVec Ideal S5000x50 .f32) (ix2 r k)
      = Cert.Spec.hot (v0 (ix2 r (0 : Fin 1))) k := by
  rw [shapeCast_self]
  refine Eq.trans ?_ (weight_eq (v0 (ix2 r (0 : Fin 1))) k)
  show FloatOps.sitofp .f32 ((IntOp.cmpi .eq (iota .tc S5000x50 32 [1] hi (ix2 r k)) (broadcastTo S5000x50 v0 hb (ix2 r k))).setWidth 32) = _
  rw [iota_single_apply, broadcastTo_apply v0 hb (ix2 r k) (ix2 r (0 : Fin 1)) (fun a => match a with
    | ⟨0, _⟩ => by show r.val = if (5000 : Nat) = 1 then 0 else r.val; rw [if_neg (by decide)]
    | ⟨1, _⟩ => by show 0 = if (1 : Nat) = 1 then 0 else k.val; rw [if_pos rfl])]

theorem lhs_embed_0 (i : S5000x16.Idx) (q : Cert.KernelIdeal.dot_S5000x50_S50x16_S5000x16_1_0_0_1_n_n.contr.Idx) :
    (Cert.KernelIdeal.dot_S5000x50_S50x16_S5000x16_1_0_0_1_n_n.lhsIdx i q 0).val = (i 0).val := by
  unfold DotDims.lhsIdx
  rw [dif_neg (show ¬(0 : Fin S5000x50.rank) ∈ Cert.KernelIdeal.dot_S5000x50_S50x16_S5000x16_1_0_0_1_n_n.lhsBatch by decide), dif_pos (show (0 : Fin S5000x50.rank) ∈ Cert.KernelIdeal.dot_S5000x50_S50x16_S5000x16_1_0_0_1_n_n.lhsNonContracting by decide)]
  rfl
theorem lhs_embed_1 (i : S5000x16.Idx) (q : Cert.KernelIdeal.dot_S5000x50_S50x16_S5000x16_1_0_0_1_n_n.contr.Idx) :
    (Cert.KernelIdeal.dot_S5000x50_S50x16_S5000x16_1_0_0_1_n_n.lhsIdx i q 1).val = (q ⟨0, by decide⟩).val :=
  Cert.KernelIdeal.dot_S5000x50_S50x16_S5000x16_1_0_0_1_n_n.lhsIdx_val_of_single rfl i q
theorem rhs_embed_0 (i : S5000x16.Idx) (q : Cert.KernelIdeal.dot_S5000x50_S50x16_S5000x16_1_0_0_1_n_n.contr.Idx) :
    (Cert.KernelIdeal.dot_S5000x50_S50x16_S5000x16_1_0_0_1_n_n.rhsIdx i q 0).val = (q ⟨0, by decide⟩).val :=
  Cert.KernelIdeal.dot_S5000x50_S50x16_S5000x16_1_0_0_1_n_n.rhsIdx_val_of_single rfl i q
theorem rhs_embed_1 (i : S5000x16.Idx) (q : Cert.KernelIdeal.dot_S5000x50_S50x16_S5000x16_1_0_0_1_n_n.contr.Idx) :
    (Cert.KernelIdeal.dot_S5000x50_S50x16_S5000x16_1_0_0_1_n_n.rhsIdx i q 1).val = (i 1).val := by
  unfold DotDims.rhsIdx
  rw [dif_neg (show ¬(1 : Fin S50x16.rank) ∈ Cert.KernelIdeal.dot_S5000x50_S50x16_S5000x16_1_0_0_1_n_n.rhsBatch by decide), dif_pos (show (1 : Fin S50x16.rank) ∈ Cert.KernelIdeal.dot_S5000x50_S50x16_S5000x16_1_0_0_1_n_n.rhsNonContracting by decide)]
  rfl

/-- A product into zeros of a 5000 by 50 matrix with the 50 by 16 table, read at row r and column q: the sum over the
    50 table rows. -/
theorem product_apply (w : FVec Ideal S5000x50 .f32) (tab : FVec Ideal S50x16 .f32) (r : Fin 5000) (q : Fin 16) :
    FloatOps.matmul Cert.KernelIdeal.dot_S5000x50_S50x16_S5000x16_1_0_0_1_n_n none w tab (constant S5000x16 .f32 0x00000000#32) (ix2 r q)
      = ∑ k : Fin 50, w (ix2 r k) * tab (ix2 k q) := by
  rw [Ideal.matmul_constant_zero_apply, ← Equiv.sum_comp (ValueIdx.contrEquiv1 Cert.KernelIdeal.dot_S5000x50_S50x16_S5000x16_1_0_0_1_n_n 50 rfl rfl).symm]
  refine Finset.sum_congr rfl fun k _ => ?_
  have hk := ValueIdx.contrEquiv1_symm_val Cert.KernelIdeal.dot_S5000x50_S50x16_S5000x16_1_0_0_1_n_n 50 rfl rfl k
  have el : Cert.KernelIdeal.dot_S5000x50_S50x16_S5000x16_1_0_0_1_n_n.lhsIdx (ix2 r q) ((ValueIdx.contrEquiv1 Cert.KernelIdeal.dot_S5000x50_S50x16_S5000x16_1_0_0_1_n_n 50 rfl rfl).symm k) = ix2 r k := funext fun a => Fin.ext (by
    match a with
    | ⟨0, _⟩ => exact lhs_embed_0 _ _
    | ⟨1, _⟩ => exact (lhs_embed_1 _ _).trans hk)
  have er : Cert.KernelIdeal.dot_S5000x50_S50x16_S5000x16_1_0_0_1_n_n.rhsIdx (ix2 r q) ((ValueIdx.contrEquiv1 Cert.KernelIdeal.dot_S5000x50_S50x16_S5000x16_1_0_0_1_n_n 50 rfl rfl).symm k) = ix2 k q := funext fun a => Fin.ext (by
    match a with
    | ⟨0, _⟩ => exact (rhs_embed_0 _ _).trans hk
    | ⟨1, _⟩ => exact rhs_embed_1 _ _)
  rw [el, er]

/-- The payload of the second store at row r and column q of its block: the table row of the node's time step,
    written as the weighted sum over all 50 rows. -/
theorem embed_apply (v0 : Vec Ideal S5000x1 .i32) (v7 : Vec Ideal S50x16 .f32) (r : Fin 5000) (q : Fin 16) :
    k0_pay1 (F := Ideal) v0 v7 (ix2 r q) = ∑ k : Fin 50, Cert.Spec.hot (v0 (ix2 r (0 : Fin 1))) k * v7 (ix2 k q) := by
  unfold k0_pay1
  refine (product_apply _ v7 r q).trans ?_
  refine Finset.sum_congr rfl fun k _ => ?_
  exact congrArg (· * v7 (ix2 k q)) (onehot_apply v0 _ _ _ _ r k)

end Embedding

/-! ## From blocks to the array

At grid point t the windows on x, on the time steps and on the output stand on rows 5000 t .. 5000 t + 4999 of their
arrays; the window on the table is the whole table. Every point writes its output block back, and the ten blocks
tile the 50000 rows: row r lies in the block of point r / 5000. -/

section Array

/-- The blocks the body reads at point t, at their literal types. -/
abbrev xblk (c : Dev nD) (t : Fin cfg0.N) : Vec Ideal S5000x256 .f32 := iblk0 V c 0 t
abbrev tsblk (c : Dev nD) (t : Fin cfg0.N) : Vec Ideal S5000x1 .i32 := iblk0 V c 1 t
abbrev tabblk (c : Dev nD) (t : Fin cfg0.N) : Vec Ideal S50x16 .f32 := iblk0 V c 2 t

/-- The block indices of the four windows over the grid: the three row windows stand on block t, column block 0;
    the table's window on block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the block at point t is row 5000 t + r of the array. -/
def rowOf (t : Fin cfg0.N) (r : Fin 5000) : Fin 50000 :=
  ⟨5000 * t.val + r.val, by have hN : cfg0.N = 10 := N_0; have := t.isLt; have := r.isLt; omega⟩

theorem rowOf_val (t : Fin cfg0.N) (r : Fin 5000) : (rowOf t r).val = 5000 * t.val + r.val := rfl

/-- The block of x at point t. -/
theorem xblk_apply (c : Dev nD) (t : Fin cfg0.N) (r : Fin 5000) (j : Fin 256) :
    xblk V c t (ix2 r j) = V c main_arg0 (ix2 (rowOf t r) j) := by
  obtain ⟨e0, e1, -⟩ := idx_facts t
  show ((cfg0.win 0).blk t).view.read (Elt Ideal) (V c main_arg0) (ix2 r j) = _
  rw [View.read_apply]
  refine congrArg (V c main_arg0) (funext fun a => Fin.ext ?_)
  match a with
  | ⟨0, _⟩ => show win0_0.index t (0 : Fin 2) * 5000 + 1 * r.val = 5000 * t.val + r.val; rw [e0]; omega
  | ⟨1, _⟩ => show win0_0.index t (1 : Fin 2) * 256 + 1 * j.val = j.val; rw [e1]; omega

/-- The block of time steps at point t. -/
theorem tsblk_apply (c : Dev nD) (t : Fin cfg0.N) (r : Fin 5000) :
    tsblk V c t (ix2 r (0 : Fin 1)) = V c main_v0 (ix2 (rowOf t r) (0 : Fin 1)) := by
  obtain ⟨-, -, e0, e1, -⟩ := idx_facts t
  show ((cfg0.win 1).blk t).view.read (Elt Ideal) (V c main_v0) (ix2 r (0 : Fin 1)) = _
  rw [View.read_apply]
  refine congrArg (V c main_v0) (funext fun a => Fin.ext ?_)
  match a with
  | ⟨0, _⟩ => show win0_1.index t (0 : Fin 2) * 5000 + 1 * r.val = 5000 * t.val + r.val; rw [e0]; omega
  | ⟨1, _⟩ => show win0_1.index t (1 : Fin 2) * 1 + 1 * 0 = 0; rw [e1]

/-- The table's window is the table at every point. -/
theorem tabblk_apply (c : Dev nD) (t : Fin cfg0.N) (k : Fin 50) (q : Fin 16) :
    tabblk V c t (ix2 k q) = V c main_arg3 (ix2 k q) := by
  obtain ⟨-, -, -, -, e0, e1, -⟩ := idx_facts t
  show ((cfg0.win 2).blk t).view.read (Elt Ideal) (V c main_arg3) (ix2 k q) = _
  rw [View.read_apply]
  refine congrArg (V c main_arg3) (funext fun a => Fin.ext ?_)
  match a with
  | ⟨0, _⟩ => show win0_2.index t (0 : Fin 2) * 50 + 1 * k.val = k.val; rw [e0]; omega
  | ⟨1, _⟩ => show win0_2.index t (1 : Fin 2) * 16 + 1 * q.val = q.val; rw [e1]; omega

/-- The block the body leaves, at row r and column j: x below column 256, the weighted table rows from 256 on. -/
theorem block_apply (x0 : Vec Ideal S5000x256 .f32) (x1 : Vec Ideal S5000x1 .i32) (x2 : Vec Ideal S50x16 .f32)
    (r : Fin 5000) (j : Fin 272) :
    joined x0 (k0_pay1 (F := Ideal) x1 x2) (ix2 r j)
      = if h : j.val < 256 then x0 (ix2 r (⟨j.val, h⟩ : Fin 256))
        else ∑ k : Fin 50, Cert.Spec.hot (x1 (ix2 r (0 : Fin 1))) k * x2 (ix2 k (⟨j.val - 256, by have := j.isLt; omega⟩ : Fin 16)) := by
  by_cases h : j.val < 256
  · rw [dif_pos h]
    exact joined_left x0 _ (ix2 r j) (ix2 r (⟨j.val, h⟩ : Fin 256)) rfl rfl
  · rw [dif_neg h]
    refine (joined_right x0 _ (ix2 r j) (ix2 r (⟨j.val - 256, by have := j.isLt; omega⟩ : Fin 16)) rfl ?_).trans (embed_apply x1 x2 r _)
    show j.val - 256 + 256 = j.val; omega

/-- What point t writes back is block t of the joined features of the arrays the kernel was entered with. -/
theorem flushed_eq (c : Dev nD) (t : Fin cfg0.N) :
    (dat0 (F := Ideal) V c).flushed 3 t
      = ((cfg0.win 3).blk t).view.read (Elt Ideal) (Cert.Spec.concatK (V c main_arg0) (V c main_v0) (V c main_arg3)) := by
  show (cfg0.win 3).cut (grid0.coords t) ((dat0 (F := Ideal) V c).after 3 t) = _
  rw [after0_3]
  unfold outsAt0
  obtain ⟨-, -, -, -, -, -, e0, e1⟩ := idx_facts t
  funext y
  have hy0 : (y 0).val < 5000 := (y 0).isLt
  have hy1 : (y 1).val < 272 := (y 1).isLt
  rw [View.read_apply]
  have hemb : ((cfg0.win 3).blk t).view.emb y = ix2 (rowOf t ⟨(y 0).val, hy0⟩) (⟨(y 1).val, hy1⟩ : Fin 272) := by
    funext a; apply Fin.ext
    match a with
    | ⟨0, _⟩ => show win0_3.index t (0 : Fin 2) * 5000 + 1 * (y 0).val = 5000 * t.val + (y 0).val; rw [e0]; omega
    | ⟨1, _⟩ => show win0_3.index t (1 : Fin 2) * 272 + 1 * (y 1).val = (y 1).val; rw [e1]; omega
  rw [hemb, Cert.Spec.concatK_apply]
  have hcut : ∀ X : Vec Ideal S5000x272 .f32, (cfg0.win 3).cut (grid0.coords t) X y
      = X (ix2 (⟨(y 0).val, hy0⟩ : Fin 5000) (⟨(y 1).val, hy1⟩ : Fin 272)) := fun X =>
    congrArg X (funext fun a => Fin.ext (match a with | ⟨0, _⟩ => rfl | ⟨1, _⟩ => rfl))
  refine (hcut _).trans ?_
  refine (congrFun (out_eq (F := Ideal) c (grid0.coords t) (ms0_0 t) (hs0_0 t) (ms0_1 t) (hs0_1 t) (ms0_2 t) (hs0_2 t)
    (ms0_3 t) (hs0_3 t) (xblk V c t) (tsblk V c t) (tabblk V c t)) _).trans ?_
  refine (block_apply (xblk V c t) (tsblk V c t) (tabblk V c t) _ _).trans ?_
  unfold Cert.Spec.concatAt
  by_cases h : (y 1).val < 256
  · rw [dif_pos h, dif_pos h]
    exact xblk_apply V c t _ _
  · rw [dif_neg h, dif_neg h]
    refine Finset.sum_congr rfl fun k _ => ?_
    rw [tsblk_apply V c t, tabblk_apply V c t]

/-- An index of the output array is in the block of point t iff each coordinate is in the block's range. -/
theorem mem_blk (t : Fin cfg0.N) (i : S50000x272.Idx) :
    i ∈ ((cfg0.win 3).blk t).view.set ↔ ∀ a : Fin 2, win0_3.index t a * S5000x272.size a ≤ (i a).val
      ∧ (i a).val < win0_3.index t a * S5000x272.size a + S5000x272.size a := by
  show i ∈ ((View.whole main_v1).slice (win0_3.rect t)).set ↔ _
  rw [View.set_slice_whole, Rect.mem_set_unit]
  exact Iff.rfl

/-- Every index of the output array lies in the block of a point that writes back: row r in block r / 5000. -/
theorem covered (i : S50000x272.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 272 := (i 1).isLt
  have ht : (i 0).val / 5000 < cfg0.N := by omega
  obtain ⟨-, -, -, -, -, -, e0, e1⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 272 ≤ (i 1).val
      ∧ (i 1).val < win0_3.index ⟨(i 0).val / 5000, ht⟩ (1 : Fin 2) * 272 + 272
    rw [e1]; omega

/-- After the first kernel's ten grid points its output array holds the joined features of the arrays it was
    entered with: x (window 0), the time steps as a column (window 1), the embedding table (window 2). -/
theorem final (c : Dev nD) :
    (dat0 (F := Ideal) V c).arrAt 3 cfg0.N = Cert.Spec.concatK (V c main_arg0) (V c main_v0) (V c main_arg3) :=
  (dat0 (F := Ideal) V c).arrAt_eq_of_cover 3 (Cert.Spec.concatK (V c main_arg0) (V c main_v0) (V c main_arg3))
    (fun t _ => flushed_eq V c t) covered

end Array

end Cert.KernelIdeal.Region0

end
-- ==== Proof.Region1.lean ====
import proofs.«407131_j35287451304625_1_alg».proof.Proof.KernelIdealFrame
import proofs.«407131_j35287451304625_1_alg».proof.Proof.Spec
import Idealize.ShloMosaic.Lib.Pipeline.Value
import Idealize.ShloMosaic.PureOps.Ideal.Laws
set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/- The contents of the core's buffers when the kernel is entered: a parameter. -/
variable (V : (c : Dev nD) → (b : Ref sig .tc) → Buf (Elt Ideal) ((c : Thread nD τ).loc b))

/-! ## A block of 5000 rows times a 272 × 256 matrix, read at one entry

The product's operand indices at the output entry (r, j) and the contraction coordinate k are (r, k) on the left and
(k, j) on the right: one fact per operand axis. -/

theorem left_axis0 (i : S5000x256.Idx) (q : dot_S5000x272_S272x256_S5000x256_1_0_0_1_n_n.contr.Idx) :
    (dot_S5000x272_S272x256_S5000x256_1_0_0_1_n_n.lhsIdx i q 0).val = (i 0).val := by
  unfold DotDims.lhsIdx
  rw [dif_neg (show ¬(0 : Fin S5000x272.rank) ∈ dot_S5000x272_S272x256_S5000x256_1_0_0_1_n_n.lhsBatch by decide), dif_pos (show (0 : Fin S5000x272.rank) ∈ dot_S5000x272_S272x256_S5000x256_1_0_0_1_n_n.lhsNonContracting by decide)]
  rfl
theorem left_axis1 (i : S5000x256.Idx) (q : dot_S5000x272_S272x256_S5000x256_1_0_0_1_n_n.contr.Idx) :
    (dot_S5000x272_S272x256_S5000x256_1_0_0_1_n_n.lhsIdx i q 1).val = (q ⟨0, by decide⟩).val :=
  dot_S5000x272_S272x256_S5000x256_1_0_0_1_n_n.lhsIdx_val_of_single rfl i q
theorem right_axis0 (i : S5000x256.Idx) (q : dot_S5000x272_S272x256_S5000x256_1_0_0_1_n_n.contr.Idx) :
    (dot_S5000x272_S272x256_S5000x256_1_0_0_1_n_n.rhsIdx i q 0).val = (q ⟨0, by decide⟩).val :=
  dot_S5000x272_S272x256_S5000x256_1_0_0_1_n_n.rhsIdx_val_of_single rfl i q
theorem right_axis1 (i : S5000x256.Idx) (q : dot_S5000x272_S272x256_S5000x256_1_0_0_1_n_n.contr.Idx) :
    (dot_S5000x272_S272x256_S5000x256_1_0_0_1_n_n.rhsIdx i q 1).val = (i 1).val := by
  unfold DotDims.rhsIdx
  rw [dif_neg (show ¬(1 : Fin S272x256.rank) ∈ dot_S5000x272_S272x256_S5000x256_1_0_0_1_n_n.rhsBatch by decide), dif_pos (show (1 : Fin S272x256.rank) ∈ dot_S5000x272_S272x256_S5000x256_1_0_0_1_n_n.rhsNonContracting by decide)]
  rfl

/-- Accumulated into zero, the product at (r, j) is the sum over k of left (r, k) times right (k, j). -/
theorem rows_times_matrix {φ₁ φ₂ : FTy} (a : FVec Ideal S5000x272 φ₁) (w : FVec Ideal S272x256 φ₂) (r : Fin 5000) (j : Fin 256) :
    matmul dot_S5000x272_S272x256_S5000x256_1_0_0_1_n_n none a w (constant S5000x256 .f32 0x00000000#32) (ix2 r j)
      = ∑ k : Fin 272, a (ix2 r k) * w (ix2 k j) := by
  simp only [matmul]
  rw [Ideal.matmul_constant_zero_apply, ← Equiv.sum_comp (ValueIdx.contrEquiv1 dot_S5000x272_S272x256_S5000x256_1_0_0_1_n_n 272 rfl rfl).symm]
  refine Finset.sum_congr rfl fun k _ => ?_
  have hk := ValueIdx.contrEquiv1_symm_val dot_S5000x272_S272x256_S5000x256_1_0_0_1_n_n 272 rfl rfl k
  have el : dot_S5000x272_S272x256_S5000x256_1_0_0_1_n_n.lhsIdx (ix2 r j) ((ValueIdx.contrEquiv1 dot_S5000x272_S272x256_S5000x256_1_0_0_1_n_n 272 rfl rfl).symm k) = ix2 r k := funext fun a => Fin.ext (by
    match a with
    | ⟨0, _⟩ => exact left_axis0 _ _
    | ⟨1, _⟩ => exact (left_axis1 _ _).trans hk)
  have er : dot_S5000x272_S272x256_S5000x256_1_0_0_1_n_n.rhsIdx (ix2 r j) ((ValueIdx.contrEquiv1 dot_S5000x272_S272x256_S5000x256_1_0_0_1_n_n 272 rfl rfl).symm k) = ix2 k j := funext fun a => Fin.ext (by
    match a with
    | ⟨0, _⟩ => exact (right_axis0 _ _).trans hk
    | ⟨1, _⟩ => exact right_axis1 _ _)
  rw [el, er]

/-! ## The body's value at one entry of its block -/

/-- The bias row repeated down the 5000 rows, at (r, j), is the bias at (0, j). -/
theorem bias_rows (b : FVec Ideal S1x256 .f32) (r : Fin 5000) (j : Fin 256) :
    broadcastTo S5000x256 b broadcasts_S1x256_S5000x256 (ix2 r j) = b (ix2 (0 : Fin 1) j) :=
  broadcastTo_apply b broadcasts_S1x256_S5000x256 (ix2 r j) (ix2 (0 : Fin 1) j) (fun a => match a with
    | ⟨0, _⟩ => by show 0 = if (1 : Nat) = 1 then 0 else _; rw [if_pos rfl]
    | ⟨1, _⟩ => by show j.val = if (256 : Nat) = 1 then 0 else j.val; rw [if_neg (by decide)])

/-- The value the body stores at row r, column j of its block: the two products summed, the bias added, clamped below at
    zero. The narrowing of the operands to the 16-bit format changes nothing at the extended reals. -/
theorem body_at (x0 x1 : Vec Ideal S5000x272 .f32) (x2 x4 : Vec Ideal S272x256 .f32) (x3 : Vec Ideal S1x256 .f32)
    (r : Fin 5000) (j : Fin 256) :
    k1_pay1 (F := Ideal) x0 x1 x2 x4 x3 (ix2 r j)
      = max ((∑ k : Fin 272, x0 (ix2 r k) * x2 (ix2 k j)) + (∑ k : Fin 272, x1 (ix2 r k) * x4 (ix2 k j)) + x3 (ix2 (0 : Fin 1) j)) 0 := by
  unfold k1_pay1
  simp only [shapeCast_self]
  rw [maximumf_apply, addf_apply, addf_apply, rows_times_matrix, rows_times_matrix, bias_rows, broadcast_apply]
  simp only [truncf_apply]
  show max _ (Ideal.ofBits .f32 0x00000000#32) = _
  rw [Ideal.ofBits_zero_f32]

/-! ## From the ten blocks to the array -/

theorem origin : (![0, 0] : Fin 2 → Nat) = fun _ => 0 := funext fun a => match a with | ⟨0, _⟩ => rfl | ⟨1, _⟩ => rfl

/-- The windows' block indices over the grid: the three row-blocked windows are at block t of rows and block 0 of columns
    at point t; the weights and the bias are at block (0, 0) at every point. -/
theorem block_indices : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The grid has ten points. -/
theorem point_lt (t : Fin cfg1.N) : t.val < 10 := lt_of_lt_of_eq t.isLt N_1

/-- A body run on the rows b·5000 … b·5000 + 4999 of the two row arrays and on the whole weights and bias computes, at
    row p of its block, row b·5000 + p of the dense part. -/
theorem block_of_rows (A0 A1 : Cert.Spec.Mat 50000 272) (A2 : Cert.Spec.Mat 272 256) (A3 : Cert.Spec.Mat 1 256) (A4 : Cert.Spec.Mat 272 256)
    (x0 x1 : Vec Ideal S5000x272 .f32) (x2 : Vec Ideal S272x256 .f32) (x3 : Vec Ideal S1x256 .f32) (x4 : Vec Ideal S272x256 .f32)
    (b : Nat) (hb : b < 10)
    (h0 : ∀ (p : Fin 5000) (k : Fin 272), x0 (ix2 p k) = A0 (ix2 (⟨b * 5000 + p.val, by have := p.isLt; omega⟩ : Fin 50000) k))
    (h1 : ∀ (p : Fin 5000) (k : Fin 272), x1 (ix2 p k) = A1 (ix2 (⟨b * 5000 + p.val, by have := p.isLt; omega⟩ : Fin 50000) k))
    (h2 : ∀ (k : Fin 272) (q : Fin 256), x2 (ix2 k q) = A2 (ix2 k q))
    (h3 : ∀ (q : Fin 256), x3 (ix2 (0 : Fin 1) q) = A3 (ix2 (0 : Fin 1) q))
    (h4 : ∀ (k : Fin 272) (q : Fin 256), x4 (ix2 k q) = A4 (ix2 k q))
    (p : Fin 5000) (q : Fin 256) :
    k1_pay1 (F := Ideal) x0 x1 x2 x4 x3 (ix2 p q)
      = Cert.Spec.linReluAt A0 A1 A2 A3 A4 ⟨b * 5000 + p.val, by have := p.isLt; omega⟩ q := by
  rw [body_at]
  unfold Cert.Spec.linReluAt
  simp only [h0, h1, h2, h3, h4]

/-- What point t writes back is block t of the dense part of the arrays the kernel was entered with. -/
theorem written_back (c : Dev nD) (t : Fin cfg1.N) :
    (dat1 (F := Ideal) V c).flushed 5 t
      = ((cfg1.win 5).blk t).view.read (Elt Ideal)
          (Cert.Spec.linReluK (V c main_v23) (V c main_v1) (V c main_v24) (V c main_v26) (V c main_v25)) := by
  show (cfg1.win 5).cut (grid1.coords t) ((dat1 V c).after 5 t) = _
  rw [after1_5]
  unfold out1_5
  rw [View.canon_unit_zero origin]
  simp only [View.ld_unit_zero (S := S5000x272) origin, View.ld_unit_zero (S := S272x256) origin, View.ld_unit_zero (S := S1x256) origin]
  obtain ⟨e50, e51, e00, e01, e10, e11, e20, e21, e30, e31, e40, e41⟩ := block_indices t
  have hb := point_lt t
  have key : ∀ y : S5000x256.Idx,
      k1_pay1 (F := Ideal) (iblk1 V c 0 t) (iblk1 V c 1 t) (iblk1 V c 2 t) (iblk1 V c 4 t) (iblk1 V c 3 t) y
        = Cert.Spec.linReluK (V c main_v23) (V c main_v1) (V c main_v24) (V c main_v26) (V c main_v25) (((cfg1.win 5).blk t).view.emb y) := by
    intro y
    obtain ⟨p, q, rfl⟩ : ∃ (p : Fin 5000) (q : Fin 256), y = ix2 p q := ⟨y 0, y 1, eq_ix2 y⟩
    have hi : ((cfg1.win 5).blk t).view.emb (ix2 p q) = ix2 (⟨t.val * 5000 + p.val, by have := p.isLt; omega⟩ : Fin 50000) q := by
      funext a; apply Fin.ext
      match a with
      | ⟨0, _⟩ => show win1_5.index t (0 : Fin 2) * 5000 + 1 * p.val = t.val * 5000 + p.val; omega
      | ⟨1, _⟩ => show win1_5.index t (1 : Fin 2) * 256 + 1 * q.val = q.val; omega
    rw [hi, Cert.Spec.linReluK_apply]
    refine block_of_rows (V c main_v23) (V c main_v1) (V c main_v24) (V c main_v26) (V c main_v25) _ _ _ _ _ t.val hb ?_ ?_ ?_ ?_ ?_ p q
    · intro p k
      show V c main_v23 (((cfg1.win 0).blk t).view.emb (ix2 p k)) = _
      refine congrArg (V c main_v23) (funext fun a => Fin.ext ?_)
      match a with
      | ⟨0, _⟩ => show win1_0.index t (0 : Fin 2) * 5000 + 1 * p.val = t.val * 5000 + p.val; omega
      | ⟨1, _⟩ => show win1_0.index t (1 : Fin 2) * 272 + 1 * k.val = k.val; omega
    · intro p k
      show V c main_v1 (((cfg1.win 1).blk t).view.emb (ix2 p k)) = _
      refine congrArg (V c main_v1) (funext fun a => Fin.ext ?_)
      match a with
      | ⟨0, _⟩ => show win1_1.index t (0 : Fin 2) * 5000 + 1 * p.val = t.val * 5000 + p.val; omega
      | ⟨1, _⟩ => show win1_1.index t (1 : Fin 2) * 272 + 1 * k.val = k.val; omega
    · intro k q
      show V c main_v24 (((cfg1.win 2).blk t).view.emb (ix2 k q)) = _
      refine congrArg (V c main_v24) (funext fun a => Fin.ext ?_)
      match a with
      | ⟨0, _⟩ => show win1_2.index t (0 : Fin 2) * 272 + 1 * k.val = k.val; omega
      | ⟨1, _⟩ => show win1_2.index t (1 : Fin 2) * 256 + 1 * q.val = q.val; omega
    · intro q
      show V c main_v26 (((cfg1.win 3).blk t).view.emb (ix2 (0 : Fin 1) q)) = _
      refine congrArg (V c main_v26) (funext fun a => Fin.ext ?_)
      match a with
      | ⟨0, _⟩ => show win1_3.index t (0 : Fin 2) * 1 + 1 * 0 = 0; omega
      | ⟨1, _⟩ => show win1_3.index t (1 : Fin 2) * 256 + 1 * q.val = q.val; omega
    · intro k q
      show V c main_v25 (((cfg1.win 4).blk t).view.emb (ix2 k q)) = _
      refine congrArg (V c main_v25) (funext fun a => Fin.ext ?_)
      match a with
      | ⟨0, _⟩ => show win1_4.index t (0 : Fin 2) * 272 + 1 * k.val = k.val; omega
      | ⟨1, _⟩ => show win1_4.index t (1 : Fin 2) * 256 + 1 * q.val = q.val; omega
  funext y
  exact key y

/-- An index of the output array is in point t's block iff each coordinate is in the block's range on its axis. -/
theorem in_block (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v27).slice (win1_5.rect t)).set ↔ _
  rw [View.set_slice_whole, Rect.mem_set_unit]
  exact Iff.rfl

/-- The ten blocks of 5000 rows tile the 50000 rows: row r is in the block of point r / 5000, and every point writes back. -/
theorem rows_covered (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  let t : Fin cfg1.N := ⟨(i 0).val / 5000, lt_of_lt_of_eq (by omega) N_1.symm⟩
  obtain ⟨e50, e51, -⟩ := block_indices t
  have ht : t.val = (i 0).val / 5000 := rfl
  refine ⟨t, flush1_5 t, ?_⟩
  rw [in_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 256 ≤ (i 1).val ∧ (i 1).val < win1_5.index t (1 : Fin 2) * 256 + 256; omega

/-- After the second kernel's ten grid points its output array holds the first layer's dense part of the arrays
    it was entered with: the neighbour means (window 0), the joined features (window 1), the two transposed weight
    matrices (windows 2 and 4) and the bias as a row (window 3). -/
theorem final (c : Dev nD) :
    (dat1 (F := Ideal) V c).arrAt 5 cfg1.N
      = Cert.Spec.linReluK (V c main_v23) (V c main_v1) (V c main_v24) (V c main_v26) (V c main_v25) := by
  exact (dat1 (F := Ideal) V c).arrAt_eq_of_cover 5 _ (fun t _ => written_back V c t) rows_covered

end Cert.KernelIdeal.Region1

end
-- ==== Proof.Region2.lean ====
import proofs.«407131_j35287451304625_1_alg».proof.Proof.KernelIdealFrame
import proofs.«407131_j35287451304625_1_alg».proof.Proof.Spec
import Idealize.ShloMosaic.Lib.Pipeline.Value
import Idealize.ShloMosaic.PureOps.Ideal.Laws
set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/- The contents of the core's buffers when the kernel is entered: a parameter. -/
variable (V : (c : Dev nD) → (b : Ref sig .tc) → Buf (Elt Ideal) ((c : Thread nD τ).loc b))

/-! ## A block of 5000 rows times a 256 × 1 column, read at one entry

The product's operand indices at the output entry (r, 0) and the contraction coordinate k are (r, k) on the left and
(k, 0) on the right: one fact per operand axis. -/

theorem left_axis0 (i : S5000x1.Idx) (q : dot_S5000x256_S256x1_S5000x1_1_0_0_1_n_n.contr.Idx) :
    (dot_S5000x256_S256x1_S5000x1_1_0_0_1_n_n.lhsIdx i q 0).val = (i 0).val := by
  unfold DotDims.lhsIdx
  rw [dif_neg (show ¬(0 : Fin S5000x256.rank) ∈ dot_S5000x256_S256x1_S5000x1_1_0_0_1_n_n.lhsBatch by decide), dif_pos (show (0 : Fin S5000x256.rank) ∈ dot_S5000x256_S256x1_S5000x1_1_0_0_1_n_n.lhsNonContracting by decide)]
  rfl
theorem left_axis1 (i : S5000x1.Idx) (q : dot_S5000x256_S256x1_S5000x1_1_0_0_1_n_n.contr.Idx) :
    (dot_S5000x256_S256x1_S5000x1_1_0_0_1_n_n.lhsIdx i q 1).val = (q ⟨0, by decide⟩).val :=
  dot_S5000x256_S256x1_S5000x1_1_0_0_1_n_n.lhsIdx_val_of_single rfl i q
theorem right_axis0 (i : S5000x1.Idx) (q : dot_S5000x256_S256x1_S5000x1_1_0_0_1_n_n.contr.Idx) :
    (dot_S5000x256_S256x1_S5000x1_1_0_0_1_n_n.rhsIdx i q 0).val = (q ⟨0, by decide⟩).val :=
  dot_S5000x256_S256x1_S5000x1_1_0_0_1_n_n.rhsIdx_val_of_single rfl i q
theorem right_axis1 (i : S5000x1.Idx) (q : dot_S5000x256_S256x1_S5000x1_1_0_0_1_n_n.contr.Idx) :
    (dot_S5000x256_S256x1_S5000x1_1_0_0_1_n_n.rhsIdx i q 1).val = (i 1).val := by
  unfold DotDims.rhsIdx
  rw [dif_neg (show ¬(1 : Fin S256x1.rank) ∈ dot_S5000x256_S256x1_S5000x1_1_0_0_1_n_n.rhsBatch by decide), dif_pos (show (1 : Fin S256x1.rank) ∈ dot_S5000x256_S256x1_S5000x1_1_0_0_1_n_n.rhsNonContracting by decide)]
  rfl

/-- Accumulated into zero, the product at (r, 0) is the sum over k of left (r, k) times right (k, 0). -/
theorem rows_times_column {φ₁ φ₂ : FTy} (a : FVec Ideal S5000x256 φ₁) (w : FVec Ideal S256x1 φ₂) (r : Fin 5000) :
    matmul dot_S5000x256_S256x1_S5000x1_1_0_0_1_n_n none a w (constant S5000x1 .f32 0x00000000#32) (ix2 r (0 : Fin 1))
      = ∑ k : Fin 256, a (ix2 r k) * w (ix2 k (0 : Fin 1)) := by
  simp only [matmul]
  rw [Ideal.matmul_constant_zero_apply, ← Equiv.sum_comp (ValueIdx.contrEquiv1 dot_S5000x256_S256x1_S5000x1_1_0_0_1_n_n 256 rfl rfl).symm]
  refine Finset.sum_congr rfl fun k _ => ?_
  have hk := ValueIdx.contrEquiv1_symm_val dot_S5000x256_S256x1_S5000x1_1_0_0_1_n_n 256 rfl rfl k
  have el : dot_S5000x256_S256x1_S5000x1_1_0_0_1_n_n.lhsIdx (ix2 r (0 : Fin 1)) ((ValueIdx.contrEquiv1 dot_S5000x256_S256x1_S5000x1_1_0_0_1_n_n 256 rfl rfl).symm k) = ix2 r k := funext fun a => Fin.ext (by
    match a with
    | ⟨0, _⟩ => exact left_axis0 _ _
    | ⟨1, _⟩ => exact (left_axis1 _ _).trans hk)
  have er : dot_S5000x256_S256x1_S5000x1_1_0_0_1_n_n.rhsIdx (ix2 r (0 : Fin 1)) ((ValueIdx.contrEquiv1 dot_S5000x256_S256x1_S5000x1_1_0_0_1_n_n 256 rfl rfl).symm k) = ix2 k (0 : Fin 1) := funext fun a => Fin.ext (by
    match a with
    | ⟨0, _⟩ => exact (right_axis0 _ _).trans hk
    | ⟨1, _⟩ => exact right_axis1 _ _)
  rw [el, er]

/-! ## The body's value at one entry of its block -/

/-- The 1 × 1 bias repeated down the 5000 rows, at (r, 0), is the bias at (0, 0). -/
theorem bias_rows (b : FVec Ideal S1x1 .f32) (r : Fin 5000) :
    broadcastTo S5000x1 b broadcasts_S1x1_S5000x1 (ix2 r (0 : Fin 1)) = b (ix2 (0 : Fin 1) (0 : Fin 1)) :=
  broadcastTo_apply b broadcasts_S1x1_S5000x1 (ix2 r (0 : Fin 1)) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

/-- The value the body stores at row r of its block: the two products summed, the bias added. The narrowing of the
    operands to the 16-bit format changes nothing at the extended reals. -/
theorem body_at (x0 x1 : Vec Ideal S5000x256 .f32) (x2 x4 : Vec Ideal S256x1 .f32) (x3 : Vec Ideal S1x1 .f32)
    (r : Fin 5000) :
    k2_pay1 (F := Ideal) x0 x1 x2 x4 x3 (ix2 r (0 : Fin 1))
      = (∑ k : Fin 256, x0 (ix2 r k) * x2 (ix2 k (0 : Fin 1))) + (∑ k : Fin 256, x1 (ix2 r k) * x4 (ix2 k (0 : Fin 1)))
          + x3 (ix2 (0 : Fin 1) (0 : Fin 1)) := by
  unfold k2_pay1
  simp only [shapeCast_self]
  rw [addf_apply, addf_apply, rows_times_column, rows_times_column, bias_rows]
  simp only [truncf_apply]

/-! ## From the ten blocks to the array -/

theorem origin : (![0, 0] : Fin 2 → Nat) = fun _ => 0 := funext fun a => match a with | ⟨0, _⟩ => rfl | ⟨1, _⟩ => rfl

/-- The windows' block indices over the grid: the three row-blocked windows are at block t of rows and block 0 of columns
    at point t; the weight columns and the bias are at block (0, 0) at every point. -/
theorem block_indices : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The grid has ten points. -/
theorem point_lt (t : Fin cfg2.N) : t.val < 10 := lt_of_lt_of_eq t.isLt N_2

/-- A body run on the rows b·5000 … b·5000 + 4999 of the two row arrays and on the whole weight columns and bias computes,
    at row p of its block, row b·5000 + p of the scalar head. -/
theorem block_of_rows (A0 A1 : Cert.Spec.Mat 50000 256) (A2 : Cert.Spec.Mat 256 1) (A3 : Cert.Spec.Mat 1 1) (A4 : Cert.Spec.Mat 256 1)
    (x0 x1 : Vec Ideal S5000x256 .f32) (x2 : Vec Ideal S256x1 .f32) (x3 : Vec Ideal S1x1 .f32) (x4 : Vec Ideal S256x1 .f32)
    (b : Nat) (hb : b < 10)
    (h0 : ∀ (p : Fin 5000) (k : Fin 256), x0 (ix2 p k) = A0 (ix2 (⟨b * 5000 + p.val, by have := p.isLt; omega⟩ : Fin 50000) k))
    (h1 : ∀ (p : Fin 5000) (k : Fin 256), x1 (ix2 p k) = A1 (ix2 (⟨b * 5000 + p.val, by have := p.isLt; omega⟩ : Fin 50000) k))
    (h2 : ∀ (k : Fin 256), x2 (ix2 k (0 : Fin 1)) = A2 (ix2 k (0 : Fin 1)))
    (h3 : x3 (ix2 (0 : Fin 1) (0 : Fin 1)) = A3 (ix2 (0 : Fin 1) (0 : Fin 1)))
    (h4 : ∀ (k : Fin 256), x4 (ix2 k (0 : Fin 1)) = A4 (ix2 k (0 : Fin 1)))
    (p : Fin 5000) :
    k2_pay1 (F := Ideal) x0 x1 x2 x4 x3 (ix2 p (0 : Fin 1))
      = Cert.Spec.headAt A0 A1 A2 A3 A4 ⟨b * 5000 + p.val, by have := p.isLt; omega⟩ := by
  rw [body_at]
  unfold Cert.Spec.headAt
  simp only [h0, h1, h2, h3, h4]

/-- What point t writes back is block t of the scalar head of the arrays the kernel was entered with. -/
theorem written_back (c : Dev nD) (t : Fin cfg2.N) :
    (dat2 (F := Ideal) V c).flushed 5 t
      = ((cfg2.win 5).blk t).view.read (Elt Ideal)
          (Cert.Spec.headK (V c main_v45) (V c main_v27) (V c main_v46) (V c main_v48) (V c main_v47)) := by
  show (cfg2.win 5).cut (grid2.coords t) ((dat2 V c).after 5 t) = _
  rw [after2_5]
  unfold out2_5
  rw [View.canon_unit_zero origin]
  simp only [View.ld_unit_zero (S := S5000x256) origin, View.ld_unit_zero (S := S256x1) origin, View.ld_unit_zero (S := S1x1) origin]
  obtain ⟨e50, e51, e00, e01, e10, e11, e20, e21, e30, e31, e40, e41⟩ := block_indices t
  have hb := point_lt t
  have key : ∀ y : S5000x1.Idx,
      k2_pay1 (F := Ideal) (iblk2 V c 0 t) (iblk2 V c 1 t) (iblk2 V c 2 t) (iblk2 V c 4 t) (iblk2 V c 3 t) y
        = Cert.Spec.headK (V c main_v45) (V c main_v27) (V c main_v46) (V c main_v48) (V c main_v47) (((cfg2.win 5).blk t).view.emb y) := by
    intro y
    obtain ⟨p, q, rfl⟩ : ∃ (p : Fin 5000) (q : Fin 1), y = ix2 p q := ⟨y 0, y 1, eq_ix2 y⟩
    obtain rfl : q = 0 := Fin.eq_zero q
    have hi : ((cfg2.win 5).blk t).view.emb (ix2 p (0 : Fin 1)) = ix2 (⟨t.val * 5000 + p.val, by have := p.isLt; omega⟩ : Fin 50000) (0 : Fin 1) := by
      funext a; apply Fin.ext
      match a with
      | ⟨0, _⟩ => show win2_5.index t (0 : Fin 2) * 5000 + 1 * p.val = t.val * 5000 + p.val; omega
      | ⟨1, _⟩ => show win2_5.index t (1 : Fin 2) * 1 + 1 * 0 = 0; omega
    rw [hi, Cert.Spec.headK_apply]
    refine block_of_rows (V c main_v45) (V c main_v27) (V c main_v46) (V c main_v48) (V c main_v47) _ _ _ _ _ t.val hb ?_ ?_ ?_ ?_ ?_ p
    · intro p k
      show V c main_v45 (((cfg2.win 0).blk t).view.emb (ix2 p k)) = _
      refine congrArg (V c main_v45) (funext fun a => Fin.ext ?_)
      match a with
      | ⟨0, _⟩ => show win2_0.index t (0 : Fin 2) * 5000 + 1 * p.val = t.val * 5000 + p.val; omega
      | ⟨1, _⟩ => show win2_0.index t (1 : Fin 2) * 256 + 1 * k.val = k.val; omega
    · intro p k
      show V c main_v27 (((cfg2.win 1).blk t).view.emb (ix2 p k)) = _
      refine congrArg (V c main_v27) (funext fun a => Fin.ext ?_)
      match a with
      | ⟨0, _⟩ => show win2_1.index t (0 : Fin 2) * 5000 + 1 * p.val = t.val * 5000 + p.val; omega
      | ⟨1, _⟩ => show win2_1.index t (1 : Fin 2) * 256 + 1 * k.val = k.val; omega
    · intro k
      show V c main_v46 (((cfg2.win 2).blk t).view.emb (ix2 k (0 : Fin 1))) = _
      refine congrArg (V c main_v46) (funext fun a => Fin.ext ?_)
      match a with
      | ⟨0, _⟩ => show win2_2.index t (0 : Fin 2) * 256 + 1 * k.val = k.val; omega
      | ⟨1, _⟩ => show win2_2.index t (1 : Fin 2) * 1 + 1 * 0 = 0; omega
    · show V c main_v48 (((cfg2.win 3).blk t).view.emb (ix2 (0 : Fin 1) (0 : Fin 1))) = _
      refine congrArg (V c main_v48) (funext fun a => Fin.ext ?_)
      match a with
      | ⟨0, _⟩ => show win2_3.index t (0 : Fin 2) * 1 + 1 * 0 = 0; omega
      | ⟨1, _⟩ => show win2_3.index t (1 : Fin 2) * 1 + 1 * 0 = 0; omega
    · intro k
      show V c main_v47 (((cfg2.win 4).blk t).view.emb (ix2 k (0 : Fin 1))) = _
      refine congrArg (V c main_v47) (funext fun a => Fin.ext ?_)
      match a with
      | ⟨0, _⟩ => show win2_4.index t (0 : Fin 2) * 256 + 1 * k.val = k.val; omega
      | ⟨1, _⟩ => show win2_4.index t (1 : Fin 2) * 1 + 1 * 0 = 0; omega
  funext y
  exact key y

/-- An index of the output column is in point t's block iff each coordinate is in the block's range on its axis. -/
theorem in_block (t : Fin cfg2.N) (i : S50000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v49).slice (win2_5.rect t)).set ↔ _
  rw [View.set_slice_whole, Rect.mem_set_unit]
  exact Iff.rfl

/-- The ten blocks of 5000 rows tile the 50000 rows: row r is in the block of point r / 5000, and every point writes back. -/
theorem rows_covered (i : S50000x1.Idx) :
    ∃ t : Fin cfg2.N, (cfg2.win 5).flush t = true ∧ i ∈ ((cfg2.win 5).blk t).view.set := by
  have hi0 : (i 0).val < 50000 := (i 0).isLt
  have hi1 : (i 1).val < 1 := (i 1).isLt
  let t : Fin cfg2.N := ⟨(i 0).val / 5000, lt_of_lt_of_eq (by omega) N_2.symm⟩
  obtain ⟨e50, e51, -⟩ := block_indices t
  have ht : t.val = (i 0).val / 5000 := rfl
  refine ⟨t, flush2_5 t, ?_⟩
  rw [in_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 1 ≤ (i 1).val ∧ (i 1).val < win2_5.index t (1 : Fin 2) * 1 + 1; omega

/-- After the third kernel's ten grid points its output column holds the scalar head of the arrays it was entered
    with: the neighbour means of the hidden features (window 0), the hidden features (window 1), the two transposed
    weight columns (windows 2 and 4) and the bias as a 1×1 array (window 3). -/
theorem final (c : Dev nD) :
    (dat2 (F := Ideal) V c).arrAt 5 cfg2.N
      = Cert.Spec.headK (V c main_v45) (V c main_v27) (V c main_v46) (V c main_v48) (V c main_v47) := by
  exact (dat2 (F := Ideal) V c).arrAt_eq_of_cover 5 _ (fun t _ => written_back V c t) rows_covered

end Cert.KernelIdeal.Region2

end
-- ==== Proof.Glue.lean ====
/-
  The neighbour mean, named once. Both programs aggregate over the edge list in the same way: the rows of a
  node-feature matrix h are taken at the edges' source nodes (a negative source index counted from the end first),
  added into a zero matrix at the edges' destination nodes, and each node's row is divided by its number of incoming
  edges, or by 1 when it has none. Here that chain of host operations is one function of h and of the two index
  vectors, for the two widths the program uses (272 and 256 columns); nothing in the proof opens it: the kernel's
  program and the reference apply it to equal arguments.
-/
import proofs.«407131_j35287451304625_1_alg».proof.Proof.Gen.KernelIdeal

noncomputable section

namespace Cert.Glue

open Idealize.ShloMosaic
open Cert.KernelIdeal Cert.KernelIdeal.Facts₀

variable {F : FTy → Type} [FloatOps F]

/-- The edges' source nodes: row 0 of the edge list. -/
def srcOf (ei : IVec S2x800000 32) : IVec S800000 32 :=
  shapeCast S800000 (extractStridedSlice S1x800000 ![0, 0] ei slices_S2x800000_S1x800000_0_0) shapeCasts_S1x800000_S800000

/-- The edges' destination nodes: row 1 of the edge list. -/
def dstOf (ei : IVec S2x800000 32) : IVec S800000 32 :=
  shapeCast S800000 (extractStridedSlice S1x800000 ![1, 0] ei slices_S2x800000_S1x800000_1_0) shapeCasts_S1x800000_S800000

/-- A source index counted from the end when negative, as a column of start indices. -/
def wrapCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Each node's number of incoming edges, at least 1. -/
def degree (dst : IVec S800000 32) : FVec F S50000x1 .f32 :=
  maximumf
    (Host.scatterAdd scatter_S50000x1_S800000x1_S800000x1_1_0_0_1
      (broadcastInDim S50000x1 ![] bcast_S_S50000x1 (constant S_ .f32 0x00000000#32))
      (broadcastInDim S800000x1 ![0] bcast_S800000_S800000x1_0 dst)
      (broadcastInDim S800000x1 ![] bcast_S_S800000x1 (constant S_ .f32 0x3F800000#32)))
    (broadcastInDim S50000x1 ![] bcast_S_S50000x1 (constant S_ .f32 0x3F800000#32))

/-- The neighbour mean of a 272-column feature matrix. -/
def segMean272 (h : FVec F S50000x272 .f32) (src dst : IVec S800000 32) : FVec F S50000x272 .f32 :=
  Host.divf
    (Host.scatterAdd scatter_S50000x272_S800000x1_S800000x272_1_0_0_1
      (broadcastInDim S50000x272 ![] bcast_S_S50000x272 (constant S_ .f32 0x00000000#32))
      (broadcastInDim S800000x1 ![0] bcast_S800000_S800000x1_0 dst)
      (Host.gather gather_S50000x272_S800000x1_S800000x272_1_0_n_n_0_1_1272 h (wrapCol src)))
    (broadcastInDim S50000x272 ![0, 1] bcast_S50000x1_S50000x272_0_1 (degree (F := F) dst))

/-- The neighbour mean of a 256-column feature matrix. -/
def segMean256 (h : FVec F S50000x256 .f32) (src dst : IVec S800000 32) : FVec F S50000x256 .f32 :=
  Host.divf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 h (wrapCol src)))
    (broadcastInDim S50000x256 ![0, 1] bcast_S50000x1_S50000x256_0_1 (degree (F := F) dst))

end Cert.Glue

end
-- ==== Proof.Out.lean ====
/-
  The program's result as one function of its ten arguments, over the extended reals: the joined features H, the
  hidden features H2 = dense layer of (neighbour mean of H, H), and the scalar head of (neighbour mean of H2, H2),
  flattened from a column to a vector. The weights enter transposed and the biases as a row and as a 1×1 array, as
  the kernels receive them.
-/
import proofs.«407131_j35287451304625_1_alg».proof.Proof.Glue
import proofs.«407131_j35287451304625_1_alg».proof.Proof.Spec

noncomputable section

namespace Cert.Out

open Idealize.ShloMosaic
open Cert.KernelIdeal Cert.KernelIdeal.Facts₀ Cert.Glue

/-- The joined features. -/
def feat (x : FVec Ideal S50000x256 .f32) (ts : IVec S50000 32) (tab : FVec Ideal S50x16 .f32) : FVec Ideal S50000x272 .f32 :=
  Cert.Spec.concatK x (shapeCast S50000x1 ts shapeCasts_S50000_S50000x1) tab

/-- The hidden features, of given joined features. -/
def hiddenOf (h : FVec Ideal S50000x272 .f32) (ei : IVec S2x800000 32) (w1l : FVec Ideal S256x272 .f32) (b1 : FVec Ideal S256 .f32)
    (w1r : FVec Ideal S256x272 .f32) : FVec Ideal S50000x256 .f32 :=
  Cert.Spec.linReluK (segMean272 (F := Ideal) h (srcOf ei) (dstOf ei)) h
    (transpose S272x256 [1, 0] w1l transposes_S256x272_S272x256_1_0) (shapeCast S1x256 b1 shapeCasts_S256_S1x256)
    (transpose S272x256 [1, 0] w1r transposes_S256x272_S272x256_1_0)

/-- The result, of given hidden features. -/
def headOf (h2 : FVec Ideal S50000x256 .f32) (ei : IVec S2x800000 32) (whl : FVec Ideal S1x256 .f32) (bh : FVec Ideal S1 .f32)
    (whr : FVec Ideal S1x256 .f32) : FVec Ideal S50000 .f32 :=
  shapeCast S50000
    (Cert.Spec.headK (segMean256 (F := Ideal) h2 (srcOf ei) (dstOf ei)) h2
      (transpose S256x1 [1, 0] whl transposes_S1x256_S256x1_1_0) (shapeCast S1x1 bh shapeCasts_S1_S1x1)
      (transpose S256x1 [1, 0] whr transposes_S1x256_S256x1_1_0))
    shapeCasts_S50000x1_S50000

/-- The program's result. -/
def result (x : FVec Ideal S50000x256 .f32) (ei : IVec S2x800000 32) (ts : IVec S50000 32) (tab : FVec Ideal S50x16 .f32)
    (w1l : FVec Ideal S256x272 .f32) (b1 : FVec Ideal S256 .f32) (w1r : FVec Ideal S256x272 .f32)
    (whl : FVec Ideal S1x256 .f32) (bh : FVec Ideal S1 .f32) (whr : FVec Ideal S1x256 .f32) : FVec Ideal S50000 .f32 :=
  headOf (hiddenOf (feat x ts tab) ei w1l b1 w1r) ei whl bh whr

end Cert.Out

end
-- ==== Proof.Walk.lean ====
/-
  The program's result read back through its seven segments. The buffer contents at each segment boundary are a
  fold from the launch memory; a host stretch changes only the buffers its operations write, a kernel region only
  its output array. Walking the result buffer back — the last reshape, the head kernel's output, the second
  neighbour mean, the dense kernel's output, the first neighbour mean, the first kernel's output, the reshape of the
  time steps — gives the result as one function of the ten arguments.
-/
import proofs.«407131_j35287451304625_1_alg».proof.Proof.KernelIdealRun
import proofs.«407131_j35287451304625_1_alg».proof.Proof.Region0
import proofs.«407131_j35287451304625_1_alg».proof.Proof.Region1
import proofs.«407131_j35287451304625_1_alg».proof.Proof.Region2
import proofs.«407131_j35287451304625_1_alg».proof.Proof.Out
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

/-! ## The two long stretches, for any contents at their start and any float family -/

section Stretches
variable {F : FTy → Type} [FloatOps F] (Vb : Valuation τ sig (Elt F))

set_option maxHeartbeats 2000000 in
/-- The stretch between the first and the second kernel leaves the neighbour mean of the first kernel's output. -/
theorem stretch1_mean : StableHlo.after hostOps1 Vb (Proc.devRef .tc main_v23)
    = Cert.Glue.segMean272 (F := F) (Vb (Proc.devRef .tc main_v1)) (Cert.Glue.srcOf (Vb (Proc.devRef .tc main_arg1))) (Cert.Glue.dstOf (Vb (Proc.devRef .tc main_arg1))) := by
  after_results
  all_goals rfl

set_option maxHeartbeats 2000000 in
/-- The stretch between the second and the third kernel leaves the neighbour mean of the second kernel's output,
    over the index vectors the first stretch computed. -/
theorem stretch2_mean : StableHlo.after hostOps2 Vb (Proc.devRef .tc main_v45)
    = Cert.Glue.segMean256 (F := F) (Vb (Proc.devRef .tc main_v27)) (Vb (Proc.devRef .tc main_v3)) (Vb (Proc.devRef .tc main_v5)) := by
  after_results
  all_goals rfl

end Stretches

variable (m : (ℓ : Loc nD τ sig) → Buf (Elt Ideal) ℓ) (ρ : Dev nD → PrngReg) (c : Dev nD)

/-! ## Before the first kernel: the time steps become a column -/

theorem s0_v0 : W1 m ρ c (Proc.devRef .tc main_v0) = shapeCast S50000x1 (m ((c : Thread nD τ).loc main_arg2)) Cert.KernelIdeal.Gen.shapeCasts_S50000_S50000x1 := by
  show StableHlo.after hostOps0 (W0 m ρ c) (Proc.devRef .tc main_v0) = _
  after_results
  all_goals rfl
theorem s0_arg0 : W1 m ρ c (Proc.devRef .tc main_arg0) = (m ((c : Thread nD τ).loc main_arg0)) :=
  (StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))) : W1 m ρ c (Proc.devRef .tc main_arg0) = W0 m ρ c (Proc.devRef .tc main_arg0)).trans rfl
theorem s0_arg1 : W1 m ρ c (Proc.devRef .tc main_arg1) = (m ((c : Thread nD τ).loc main_arg1)) :=
  (StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))) : W1 m ρ c (Proc.devRef .tc main_arg1) = W0 m ρ c (Proc.devRef .tc main_arg1)).trans rfl
theorem s0_arg3 : W1 m ρ c (Proc.devRef .tc main_arg3) = (m ((c : Thread nD τ).loc main_arg3)) :=
  (StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))) : W1 m ρ c (Proc.devRef .tc main_arg3) = W0 m ρ c (Proc.devRef .tc main_arg3)).trans rfl
theorem s0_arg4 : W1 m ρ c (Proc.devRef .tc main_arg4) = (m ((c : Thread nD τ).loc main_arg4)) :=
  (StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))) : W1 m ρ c (Proc.devRef .tc main_arg4) = W0 m ρ c (Proc.devRef .tc main_arg4)).trans rfl
theorem s0_arg5 : W1 m ρ c (Proc.devRef .tc main_arg5) = (m ((c : Thread nD τ).loc main_arg5)) :=
  (StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))) : W1 m ρ c (Proc.devRef .tc main_arg5) = W0 m ρ c (Proc.devRef .tc main_arg5)).trans rfl
theorem s0_arg6 : W1 m ρ c (Proc.devRef .tc main_arg6) = (m ((c : Thread nD τ).loc main_arg6)) :=
  (StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))) : W1 m ρ c (Proc.devRef .tc main_arg6) = W0 m ρ c (Proc.devRef .tc main_arg6)).trans rfl
theorem s0_arg7 : W1 m ρ c (Proc.devRef .tc main_arg7) = (m ((c : Thread nD τ).loc main_arg7)) :=
  (StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))) : W1 m ρ c (Proc.devRef .tc main_arg7) = W0 m ρ c (Proc.devRef .tc main_arg7)).trans rfl
theorem s0_arg8 : W1 m ρ c (Proc.devRef .tc main_arg8) = (m ((c : Thread nD τ).loc main_arg8)) :=
  (StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))) : W1 m ρ c (Proc.devRef .tc main_arg8) = W0 m ρ c (Proc.devRef .tc main_arg8)).trans rfl
theorem s0_arg9 : W1 m ρ c (Proc.devRef .tc main_arg9) = (m ((c : Thread nD τ).loc main_arg9)) :=
  (StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))) : W1 m ρ c (Proc.devRef .tc main_arg9) = W0 m ρ c (Proc.devRef .tc main_arg9)).trans rfl

/-! ## The first kernel writes the joined features; every other buffer keeps its contents -/

theorem r0_v1 : W2 m ρ c (Proc.devRef .tc main_v1) = Cert.Out.feat (m ((c : Thread nD τ).loc main_arg0)) (m ((c : Thread nD τ).loc main_arg2)) (m ((c : Thread nD τ).loc main_arg3)) := by
  refine (W2_arr m ρ c 3).trans ((Cert.KernelIdeal.Region0.final (V1 m ρ) c).trans ?_)
  show Cert.Spec.concatK (W1 m ρ c (Proc.devRef .tc main_arg0)) (W1 m ρ c (Proc.devRef .tc main_v0)) (W1 m ρ c (Proc.devRef .tc main_arg3)) = _
  rw [s0_arg0, s0_v0, s0_arg3]
  rfl
theorem r0_arg1 : W2 m ρ c (Proc.devRef .tc main_arg1) = (m ((c : Thread nD τ).loc main_arg1)) :=
  (W2_of_ne m ρ c main_arg1 (by decide)).trans (s0_arg1 m ρ c)
theorem r0_arg4 : W2 m ρ c (Proc.devRef .tc main_arg4) = (m ((c : Thread nD τ).loc main_arg4)) :=
  (W2_of_ne m ρ c main_arg4 (by decide)).trans (s0_arg4 m ρ c)
theorem r0_arg5 : W2 m ρ c (Proc.devRef .tc main_arg5) = (m ((c : Thread nD τ).loc main_arg5)) :=
  (W2_of_ne m ρ c main_arg5 (by decide)).trans (s0_arg5 m ρ c)
theorem r0_arg6 : W2 m ρ c (Proc.devRef .tc main_arg6) = (m ((c : Thread nD τ).loc main_arg6)) :=
  (W2_of_ne m ρ c main_arg6 (by decide)).trans (s0_arg6 m ρ c)
theorem r0_arg7 : W2 m ρ c (Proc.devRef .tc main_arg7) = (m ((c : Thread nD τ).loc main_arg7)) :=
  (W2_of_ne m ρ c main_arg7 (by decide)).trans (s0_arg7 m ρ c)
theorem r0_arg8 : W2 m ρ c (Proc.devRef .tc main_arg8) = (m ((c : Thread nD τ).loc main_arg8)) :=
  (W2_of_ne m ρ c main_arg8 (by decide)).trans (s0_arg8 m ρ c)
theorem r0_arg9 : W2 m ρ c (Proc.devRef .tc main_arg9) = (m ((c : Thread nD τ).loc main_arg9)) :=
  (W2_of_ne m ρ c main_arg9 (by decide)).trans (s0_arg9 m ρ c)

/-! ## Between the first and the second kernel: the neighbour mean, the transposed weights, the bias as a row -/

theorem s1_v23 : W3 m ρ c (Proc.devRef .tc main_v23)
    = Cert.Glue.segMean272 (F := Ideal) (W2 m ρ c (Proc.devRef .tc main_v1)) (Cert.Glue.srcOf (W2 m ρ c (Proc.devRef .tc main_arg1))) (Cert.Glue.dstOf (W2 m ρ c (Proc.devRef .tc main_arg1))) :=
  stretch1_mean (W2 m ρ c)
theorem s1_v1 : W3 m ρ c (Proc.devRef .tc main_v1) = W2 m ρ c (Proc.devRef .tc main_v1) :=
  StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s1_v24 : W3 m ρ c (Proc.devRef .tc main_v24) = transpose S272x256 [1, 0] (W2 m ρ c (Proc.devRef .tc main_arg4)) Cert.KernelIdeal.Gen.transposes_S256x272_S272x256_1_0 := by
  show StableHlo.after hostOps1 (W2 m ρ c) (Proc.devRef .tc main_v24) = _
  generalize W2 m ρ c = Vb
  after_results
  all_goals rfl
theorem s1_v25 : W3 m ρ c (Proc.devRef .tc main_v25) = transpose S272x256 [1, 0] (W2 m ρ c (Proc.devRef .tc main_arg6)) Cert.KernelIdeal.Gen.transposes_S256x272_S272x256_1_0 := by
  show StableHlo.after hostOps1 (W2 m ρ c) (Proc.devRef .tc main_v25) = _
  generalize W2 m ρ c = Vb
  after_results
  all_goals rfl
theorem s1_v26 : W3 m ρ c (Proc.devRef .tc main_v26) = shapeCast S1x256 (W2 m ρ c (Proc.devRef .tc main_arg5)) Cert.KernelIdeal.Gen.shapeCasts_S256_S1x256 := by
  show StableHlo.after hostOps1 (W2 m ρ c) (Proc.devRef .tc main_v26) = _
  generalize W2 m ρ c = Vb
  after_results
  all_goals rfl
theorem s1_v3 : W3 m ρ c (Proc.devRef .tc main_v3) = Cert.Glue.srcOf (W2 m ρ c (Proc.devRef .tc main_arg1)) := by
  show StableHlo.after hostOps1 (W2 m ρ c) (Proc.devRef .tc main_v3) = _
  generalize W2 m ρ c = Vb
  after_results
  all_goals rfl
theorem s1_v5 : W3 m ρ c (Proc.devRef .tc main_v5) = Cert.Glue.dstOf (W2 m ρ c (Proc.devRef .tc main_arg1)) := by
  show StableHlo.after hostOps1 (W2 m ρ c) (Proc.devRef .tc main_v5) = _
  generalize W2 m ρ c = Vb
  after_results
  all_goals rfl
theorem s1_arg7 : W3 m ρ c (Proc.devRef .tc main_arg7) = (m ((c : Thread nD τ).loc main_arg7)) :=
  (StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))) : W3 m ρ c (Proc.devRef .tc main_arg7) = W2 m ρ c (Proc.devRef .tc main_arg7)).trans (r0_arg7 m ρ c)
theorem s1_arg8 : W3 m ρ c (Proc.devRef .tc main_arg8) = (m ((c : Thread nD τ).loc main_arg8)) :=
  (StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))) : W3 m ρ c (Proc.devRef .tc main_arg8) = W2 m ρ c (Proc.devRef .tc main_arg8)).trans (r0_arg8 m ρ c)
theorem s1_arg9 : W3 m ρ c (Proc.devRef .tc main_arg9) = (m ((c : Thread nD τ).loc main_arg9)) :=
  (StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))) : W3 m ρ c (Proc.devRef .tc main_arg9) = W2 m ρ c (Proc.devRef .tc main_arg9)).trans (r0_arg9 m ρ c)

/-- The hidden features' inputs, as the second kernel finds them, in the arguments. -/
theorem r1_v27 : W4 m ρ c (Proc.devRef .tc main_v27)
    = Cert.Out.hiddenOf (Cert.Out.feat (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) := by
  refine (W4_arr m ρ c 5).trans ((Cert.KernelIdeal.Region1.final (V3 m ρ) c).trans ?_)
  show Cert.Spec.linReluK (W3 m ρ c (Proc.devRef .tc main_v23)) (W3 m ρ c (Proc.devRef .tc main_v1)) (W3 m ρ c (Proc.devRef .tc main_v24)) (W3 m ρ c (Proc.devRef .tc main_v26)) (W3 m ρ c (Proc.devRef .tc main_v25)) = _
  rw [s1_v23, s1_v1, s1_v24, s1_v26, s1_v25, r0_v1, r0_arg1, r0_arg4, r0_arg5, r0_arg6]
  rfl
theorem r1_v3 : W4 m ρ c (Proc.devRef .tc main_v3) = Cert.Glue.srcOf (m ((c : Thread nD τ).loc main_arg1)) :=
  (W4_of_ne m ρ c main_v3 (by decide)).trans ((s1_v3 m ρ c).trans (by rw [r0_arg1]))
theorem r1_v5 : W4 m ρ c (Proc.devRef .tc main_v5) = Cert.Glue.dstOf (m ((c : Thread nD τ).loc main_arg1)) :=
  (W4_of_ne m ρ c main_v5 (by decide)).trans ((s1_v5 m ρ c).trans (by rw [r0_arg1]))
theorem r1_arg7 : W4 m ρ c (Proc.devRef .tc main_arg7) = (m ((c : Thread nD τ).loc main_arg7)) :=
  (W4_of_ne m ρ c main_arg7 (by decide)).trans (s1_arg7 m ρ c)
theorem r1_arg8 : W4 m ρ c (Proc.devRef .tc main_arg8) = (m ((c : Thread nD τ).loc main_arg8)) :=
  (W4_of_ne m ρ c main_arg8 (by decide)).trans (s1_arg8 m ρ c)
theorem r1_arg9 : W4 m ρ c (Proc.devRef .tc main_arg9) = (m ((c : Thread nD τ).loc main_arg9)) :=
  (W4_of_ne m ρ c main_arg9 (by decide)).trans (s1_arg9 m ρ c)

/-! ## Between the second and the third kernel: the second neighbour mean, the transposed head weights, the bias -/

theorem s2_v45 : W5 m ρ c (Proc.devRef .tc main_v45)
    = Cert.Glue.segMean256 (F := Ideal) (W4 m ρ c (Proc.devRef .tc main_v27)) (W4 m ρ c (Proc.devRef .tc main_v3)) (W4 m ρ c (Proc.devRef .tc main_v5)) :=
  stretch2_mean (W4 m ρ c)
theorem s2_v27 : W5 m ρ c (Proc.devRef .tc main_v27) = W4 m ρ c (Proc.devRef .tc main_v27) :=
  StableHlo.after_of_forall_not_mem _ _ (List.forall_iff_forall_mem.mp (by
    simp only [hostOps2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem s2_v46 : W5 m ρ c (Proc.devRef .tc main_v46) = transpose S256x1 [1, 0] (W4 m ρ c (Proc.devRef .tc main_arg7)) Cert.KernelIdeal.Gen.transposes_S1x256_S256x1_1_0 := by
  show StableHlo.after hostOps2 (W4 m ρ c) (Proc.devRef .tc main_v46) = _
  generalize W4 m ρ c = Vb
  after_results
  all_goals rfl
theorem s2_v47 : W5 m ρ c (Proc.devRef .tc main_v47) = transpose S256x1 [1, 0] (W4 m ρ c (Proc.devRef .tc main_arg9)) Cert.KernelIdeal.Gen.transposes_S1x256_S256x1_1_0 := by
  show StableHlo.after hostOps2 (W4 m ρ c) (Proc.devRef .tc main_v47) = _
  generalize W4 m ρ c = Vb
  after_results
  all_goals rfl
theorem s2_v48 : W5 m ρ c (Proc.devRef .tc main_v48) = shapeCast S1x1 (W4 m ρ c (Proc.devRef .tc main_arg8)) Cert.KernelIdeal.Gen.shapeCasts_S1_S1x1 := by
  show StableHlo.after hostOps2 (W4 m ρ c) (Proc.devRef .tc main_v48) = _
  generalize W4 m ρ c = Vb
  after_results
  all_goals rfl

/-! ## The third kernel's output, and the last reshape -/

/-- THE RESULT: the result buffer after @main's last segment is the program's function of the ten arguments. -/
theorem result : W7 m ρ c (Proc.devRef .tc main_v50)
    = Cert.Out.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h3 : W7 m ρ c (Proc.devRef .tc main_v50) = shapeCast S50000 (W6 m ρ c (Proc.devRef .tc main_v49)) Cert.KernelIdeal.Gen.shapeCasts_S50000x1_S50000 := by
    show StableHlo.after hostOps3 (W6 m ρ c) (Proc.devRef .tc main_v50) = _
    generalize W6 m ρ c = Vb
    after_results
    all_goals rfl
  have h2 : W6 m ρ c (Proc.devRef .tc main_v49)
      = Cert.Spec.headK (W5 m ρ c (Proc.devRef .tc main_v45)) (W5 m ρ c (Proc.devRef .tc main_v27)) (W5 m ρ c (Proc.devRef .tc main_v46)) (W5 m ρ c (Proc.devRef .tc main_v48)) (W5 m ρ c (Proc.devRef .tc main_v47)) :=
    (W6_arr m ρ c 5).trans (Cert.KernelIdeal.Region2.final (V5 m ρ) c)
  rw [h3, h2, s2_v45, s2_v27, s2_v46, s2_v48, s2_v47, r1_v27, r1_v3, r1_v5, r1_arg7, r1_arg8, r1_arg9]
  rfl

end Cert.KernelIdeal.Walk

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.RefStages.lean ====
import proofs.«407131_j35287451304625_1_alg».proof.Proof.Gen.ReferenceIdeal.Read
import proofs.«407131_j35287451304625_1_alg».proof.Proof.Spec
import proofs.«407131_j35287451304625_1_alg».proof.Proof.Gen.KernelIdeal
import proofs.«407131_j35287451304625_1_alg».proof.Proof.LibRows
import Idealize.ShloMosaic.Lib.Pipeline.Value
import Idealize.ShloMosaic.Lib.ValueIdx
import Idealize.ShloMosaic.PureOps.Ideal.Laws

noncomputable section

open scoped BigOperators

namespace Cert.RefStages

open Idealize.ShloMosaic Idealize.ShloMosaic.ValueIdx
open Cert.ReferenceIdeal Cert.ReferenceIdeal.Read

/-! ## Matrix products on the host, read at an element -/

/-- The product of a 50000×272 matrix with a 272×256 matrix at (r, j): the sum over k of a[r, k] · w[k, j]. -/
theorem dot272_apply (a : FVec Ideal S50000x272 .f32) (w : FVec Ideal S272x256 .f32) (r : Fin 50000) (j : Fin 256) :
    Host.dotGeneral dot_S50000x272_S272x256_S50000x256_1_0_0_1_n_n none a w (ix2 r j)
      = ∑ k : Fin 272, a (ix2 r k) * w (ix2 k j) := by
  simp only [Host.dotGeneral]
  rw [Ideal.dotGeneral_apply,
    ← Equiv.sum_comp (ValueIdx.contrEquiv1 dot_S50000x272_S272x256_S50000x256_1_0_0_1_n_n 272 rfl rfl).symm]
  refine Finset.sum_congr rfl fun k _ => ?_
  have hk := ValueIdx.contrEquiv1_symm_val dot_S50000x272_S272x256_S50000x256_1_0_0_1_n_n 272 rfl rfl k
  have el : dot_S50000x272_S272x256_S50000x256_1_0_0_1_n_n.lhsIdx (ix2 r j)
      ((ValueIdx.contrEquiv1 dot_S50000x272_S272x256_S50000x256_1_0_0_1_n_n 272 rfl rfl).symm k) = ix2 r k :=
    funext fun d => Fin.ext (by
      match d with
      | ⟨0, _⟩ => exact lhs_main_v31_0 _ _
      | ⟨1, _⟩ => exact (lhs_main_v31_1 _ _).trans hk)
  have er : dot_S50000x272_S272x256_S50000x256_1_0_0_1_n_n.rhsIdx (ix2 r j)
      ((ValueIdx.contrEquiv1 dot_S50000x272_S272x256_S50000x256_1_0_0_1_n_n 272 rfl rfl).symm k) = ix2 k j :=
    funext fun d => Fin.ext (by
      match d with
      | ⟨0, _⟩ => exact (rhs_main_v31_0 _ _).trans hk
      | ⟨1, _⟩ => exact rhs_main_v31_1 _ _)
  rw [el, er]

/-- The product of a 50000×256 matrix with a 256×1 column at (r, q): the sum over k of a[r, k] · w[k, q]. -/
theorem dot256_apply (a : FVec Ideal S50000x256 .f32) (w : FVec Ideal S256x1 .f32) (r : Fin 50000) (q : Fin 1) :
    Host.dotGeneral dot_S50000x256_S256x1_S50000x1_1_0_0_1_n_n none a w (ix2 r q)
      = ∑ k : Fin 256, a (ix2 r k) * w (ix2 k q) := by
  simp only [Host.dotGeneral]
  rw [Ideal.dotGeneral_apply,
    ← Equiv.sum_comp (ValueIdx.contrEquiv1 dot_S50000x256_S256x1_S50000x1_1_0_0_1_n_n 256 rfl rfl).symm]
  refine Finset.sum_congr rfl fun k _ => ?_
  have hk := ValueIdx.contrEquiv1_symm_val dot_S50000x256_S256x1_S50000x1_1_0_0_1_n_n 256 rfl rfl k
  have el : dot_S50000x256_S256x1_S50000x1_1_0_0_1_n_n.lhsIdx (ix2 r q)
      ((ValueIdx.contrEquiv1 dot_S50000x256_S256x1_S50000x1_1_0_0_1_n_n 256 rfl rfl).symm k) = ix2 r k :=
    funext fun d => Fin.ext (by
      match d with
      | ⟨0, _⟩ => exact lhs_main_v58_0 _ _
      | ⟨1, _⟩ => exact (lhs_main_v58_1 _ _).trans hk)
  have er : dot_S50000x256_S256x1_S50000x1_1_0_0_1_n_n.rhsIdx (ix2 r q)
      ((ValueIdx.contrEquiv1 dot_S50000x256_S256x1_S50000x1_1_0_0_1_n_n 256 rfl rfl).symm k) = ix2 k q :=
    funext fun d => Fin.ext (by
      match d with
      | ⟨0, _⟩ => exact (rhs_main_v58_0 _ _).trans hk
      | ⟨1, _⟩ => exact rhs_main_v58_1 _ _)
  rw [el, er]

/-! ## The biases and the zero, read at an element -/

/-- The first layer's bias broadcast over the rows, at (r, j), is the bias vector's entry j. -/
theorem bias256_apply (b : FVec Ideal S256 .f32) (r : Fin 50000) (j : Fin 256) :
    val_main_v33 (F := Ideal) b (ix2 r j) = b (ix1 j) := by
  rw [val_main_v33_apply, val_main_v32_apply]
  refine congrArg b (funext fun d => ?_)
  match d with
  | ⟨0, _⟩ => rfl

/-- The same bias as a 1×256 row, at (0, j), is the bias vector's entry j. -/
theorem biasRow256_apply (b : FVec Ideal S256 .f32) (j : Fin 256) :
    shapeCast S1x256 b Cert.KernelIdeal.Gen.shapeCasts_S256_S1x256 (ix2 (0 : Fin 1) j) = b (ix1 j) :=
  shapeCast_apply b Cert.KernelIdeal.Gen.shapeCasts_S256_S1x256 (ix2 (0 : Fin 1) j) (ix1 j)
    (by rewrite [Shape.rowMajor_val_two, Shape.rowMajor_val_one]; show j.val = 0 * 256 + j.val; omega)

/-- The head's bias broadcast over the rows, at (r, q), is the one-element bias vector's entry. -/
theorem bias1_apply (b : FVec Ideal S1 .f32) (r : Fin 50000) (q : Fin 1) :
    val_main_v60 (F := Ideal) b (ix2 r q) = b (ix1 (0 : Fin 1)) := by
  rw [val_main_v60_apply, val_main_v59_apply]
  refine congrArg b (funext fun d => ?_)
  match d with
  | ⟨0, _⟩ => rfl

/-- The same bias as a 1×1 array, at (0, 0), is the bias vector's entry. -/
theorem biasRow1_apply (b : FVec Ideal S1 .f32) :
    shapeCast S1x1 b Cert.KernelIdeal.Gen.shapeCasts_S1_S1x1 (ix2 (0 : Fin 1) (0 : Fin 1)) = b (ix1 (0 : Fin 1)) :=
  shapeCast_apply b Cert.KernelIdeal.Gen.shapeCasts_S1_S1x1 (ix2 (0 : Fin 1) (0 : Fin 1)) (ix1 (0 : Fin 1))
    (by rewrite [Shape.rowMajor_val_two, Shape.rowMajor_val_one]; show (0 : Nat) = 0 * 1 + 0; omega)

/-- The array the clip compares with is 0 everywhere. -/
theorem zeros_apply (i : S50000x256.Idx) : val_main_call0_v0 (F := Ideal) i = 0 := by
  rw [val_main_call0_v0_apply, val_main_call0_cst_apply]
  exact Ideal.ofBits_zero_f32

/-! ## Time steps as 32-bit words -/

/-- A word whose signed reading is not negative reads the same unsigned. -/
theorem toNat_of_toInt_nonneg (t : BitVec 32) (h : 0 ≤ t.toInt) : t.toInt.toNat = t.toNat := by
  have hc := BitVec.toInt_eq_toNat_cond t
  have hl := t.isLt
  split at hc <;> omega

/-- Such a word is not below 0 in the signed order: the compare gives the 0 bit. -/
theorem slt_zero_of_nonneg (t : BitVec 32) (h : 0 ≤ t.toInt) : IntOp.cmpi .slt t 0#32 = 0#1 := by
  show BitVec.ofBool (t.slt 0#32) = 0#1
  rw [BitVec.slt_eq_decide, BitVec.toInt_zero, decide_eq_false (by omega)]
  rfl

/-- For a time step t in [0, 50) the table row k is the step, compared as words, exactly when k is t's value. -/
theorem ofNat_eq_iff (t : BitVec 32) (h0 : 0 ≤ t.toInt) (h1 : t.toInt < 50) (k : Fin 50) :
    BitVec.ofNat 32 k.val = t ↔ k.val = t.toInt.toNat := by
  have hn := toNat_of_toInt_nonneg t h0
  have hk := k.isLt
  constructor
  · intro e
    have := congrArg BitVec.toNat e
    rw [BitVec.toNat_ofNat, Nat.mod_eq_of_lt (by omega)] at this
    omega
  · intro e
    refine BitVec.eq_of_toNat_eq ?_
    rw [BitVec.toNat_ofNat, Nat.mod_eq_of_lt (by omega)]
    omega

/-! ## The index column, the rows taken from the table, and the join, read at an element -/

/-- The start-index column at (p, 0) is the time step itself when the step is not negative
    (the wrap-around "add 50 to a negative step" is not taken). -/
theorem tsCol_apply (x2 : IVec S50000 32) (p : Fin 50000) (h0 : 0 ≤ (x2 (ix1 p)).toInt) :
    val_main_v5 (F := Ideal) x2 (ix2 p (0 : Fin 1)) = x2 (ix1 p) := by
  have hi : idx_main_v5 (ix2 p (0 : Fin 1)) = ix1 p := funext fun d => by
    match d with
    | ⟨0, _⟩ => rfl
  rw [val_main_v5_apply, hi, val_main_v4_apply, val_main_v1_apply, val_main_v0_apply, val_main_c_apply,
    slt_zero_of_nonneg _ h0, select_zero]

/-- The rows taken from the table at (p, q): the table's row number t_p, column q, for a step t_p in [0, 50)
    (the clamp into the table does nothing). -/
theorem rows_apply (x2 : IVec S50000 32) (x3 : FVec Ideal S50x16 .f32) (p : Fin 50000) (q : Fin 16)
    (h0 : 0 ≤ (x2 (ix1 p)).toInt) (h1 : (x2 (ix1 p)).toInt < 50) :
    val_main_v6 (F := Ideal) x2 x3 (ix2 p q) = x3 (ix2 ⟨(x2 (ix1 p)).toInt.toNat, by omega⟩ q) := by
  unfold val_main_v6
  show Host.gather (Cert.LibRows.rowGatherDims 50 50000 16 Cert.ReferenceIdeal.Gen.gather_S50x16_S50000x1_S50000x16_1_0_n_n_0_1_116_wf)
    x3 (val_main_v5 (F := Ideal) x2) (ix2 p q) = _
  rw [Cert.LibRows.rowGather_apply (by decide)]
  refine congrArg x3 (congrArg (fun a => ix2 a q) (Fin.ext ?_))
  show min (val_main_v5 (F := Ideal) x2 (ix2 p (0 : Fin 1))).toInt.toNat (50 - 1) = (x2 (ix1 p)).toInt.toNat
  rw [tsCol_apply x2 p h0]
  omega

/-- The time steps as a column, at (r, 0), are the time-step vector's entry r. -/
theorem tsCast_apply (x2 : IVec S50000 32) (r : Fin 50000) :
    shapeCast S50000x1 x2 Cert.KernelIdeal.Gen.shapeCasts_S50000_S50000x1 (ix2 r (0 : Fin 1)) = x2 (ix1 r) :=
  shapeCast_apply x2 Cert.KernelIdeal.Gen.shapeCasts_S50000_S50000x1 (ix2 r (0 : Fin 1)) (ix1 r)
    (by rewrite [Shape.rowMajor_val_two, Shape.rowMajor_val_one]; show r.val = r.val * 1 + 0; omega)

/-- The one-hot row of a step t in [0, 50) times a table column: only the term at row t is left. -/
theorem hot_sum (t : BitVec 32) (h0 : 0 ≤ t.toInt) (h1 : t.toInt < 50) (f : Fin 50 → EReal) :
    ∑ k : Fin 50, Cert.Spec.hot t k * f k = f ⟨t.toInt.toNat, by omega⟩ := by
  rw [Finset.sum_eq_single (⟨t.toInt.toNat, by omega⟩ : Fin 50)]
  · unfold Cert.Spec.hot
    rw [if_pos ((ofNat_eq_iff t h0 h1 _).mpr rfl), one_mul]
  · intro k _ hk
    unfold Cert.Spec.hot
    rw [if_neg (fun e => hk (Fin.ext ((ofNat_eq_iff t h0 h1 k).mp e))), zero_mul]
  · intro hn
    exact absurd (Finset.mem_univ _) hn

/-- The reference's joined features — x beside the table's rows taken at the time steps (a negative step counted
    from the end, then clamped into the table) — are the one-hot form, when every time step is a row of the table. -/
theorem feat_eq (x0 : FVec Ideal S50000x256 .f32) (x2 : IVec S50000 32) (x3 : FVec Ideal S50x16 .f32)
    (hts : ∀ r : Fin 50000, 0 ≤ (x2 (ix1 r)).toInt ∧ (x2 (ix1 r)).toInt < 50) :
    val_main_v7 (F := Ideal) x0 x2 x3
      = Cert.Spec.concatK x0 (shapeCast S50000x1 x2 Cert.KernelIdeal.Gen.shapeCasts_S50000_S50000x1) x3 := by
  funext i
  obtain ⟨r, j, rfl⟩ : ∃ (r : Fin 50000) (j : Fin 272), i = ix2 r j := ⟨i 0, i 1, eq_ix2 i⟩
  obtain ⟨h0, h1⟩ := hts r
  rw [Cert.Spec.concatK_apply]
  unfold Cert.Spec.concatAt val_main_v7
  by_cases hj : j.val < 256
  · -- a column of x
    rw [dif_pos hj]
    exact concatenate_pair_apply_left (1 : Fin 2) x0 (val_main_v6 (F := Ideal) x2 x3)
      Cert.ReferenceIdeal.Gen.concatenates_S50000x256_S50000x16_S50000x272_d1 (ix2 r j) rfl (ix2 r ⟨j.val, hj⟩)
      (fun b => match b with
        | ⟨0, _⟩ => rfl
        | ⟨1, _⟩ => rfl)
  · -- a column of the time embedding
    rw [dif_neg hj, tsCast_apply, hot_sum _ h0 h1 (fun k => x3 (ix2 k ⟨j.val - 256, by omega⟩)),
      ← rows_apply x2 x3 r ⟨j.val - 256, by omega⟩ h0 h1]
    exact concatenate_pair_apply_right (1 : Fin 2) x0 (val_main_v6 (F := Ideal) x2 x3)
      Cert.ReferenceIdeal.Gen.concatenates_S50000x256_S50000x16_S50000x272_d1 (ix2 r j) rfl rfl (ix2 r ⟨j.val - 256, by omega⟩)
      (fun b hb => match b, hb with
        | ⟨0, _⟩, _ => rfl
        | ⟨1, _⟩, hb => absurd rfl hb)
      (by show (j.val - 256) + 256 = j.val; omega)

/-- The reference's dense layer, (a·wl + b) + h·wr clipped below at 0 with the bias broadcast from a vector, is the
    kernel's (a·wl + h·wr) + b with the bias as a row: addition of extended reals is commutative and associative. -/
theorem dense_eq (a h : FVec Ideal S50000x272 .f32) (wl wr : FVec Ideal S272x256 .f32) (b : FVec Ideal S256 .f32) :
    maximumf (addf (addf (Host.dotGeneral dot_S50000x272_S272x256_S50000x256_1_0_0_1_n_n none a wl) (val_main_v33 (F := Ideal) b))
        (Host.dotGeneral dot_S50000x272_S272x256_S50000x256_1_0_0_1_n_n none h wr)) (val_main_call0_v0 (F := Ideal))
      = Cert.Spec.linReluK a h wl (shapeCast S1x256 b Cert.KernelIdeal.Gen.shapeCasts_S256_S1x256) wr := by
  funext i
  obtain ⟨r, j, rfl⟩ : ∃ (r : Fin 50000) (j : Fin 256), i = ix2 r j := ⟨i 0, i 1, eq_ix2 i⟩
  rw [maximumf_apply, addf_apply, addf_apply, dot272_apply, dot272_apply, bias256_apply, zeros_apply,
    Cert.Spec.linReluK_apply]
  unfold Cert.Spec.linReluAt
  rw [biasRow256_apply, add_right_comm]

/-- The reference's head, (a·wl + b) + h·wr with the bias broadcast from a one-element vector, is the kernel's
    (a·wl + h·wr) + b with the bias as a 1×1 array. -/
theorem head_eq (a h : FVec Ideal S50000x256 .f32) (wl wr : FVec Ideal S256x1 .f32) (b : FVec Ideal S1 .f32) :
    addf (addf (Host.dotGeneral dot_S50000x256_S256x1_S50000x1_1_0_0_1_n_n none a wl) (val_main_v60 (F := Ideal) b))
        (Host.dotGeneral dot_S50000x256_S256x1_S50000x1_1_0_0_1_n_n none h wr)
      = Cert.Spec.headK a h wl (shapeCast S1x1 b Cert.KernelIdeal.Gen.shapeCasts_S1_S1x1) wr := by
  funext i
  obtain ⟨r, q, rfl⟩ : ∃ (r : Fin 50000) (q : Fin 1), i = ix2 r q := ⟨i 0, i 1, eq_ix2 i⟩
  have hq : q = 0 := Subsingleton.elim _ _
  subst hq
  rw [addf_apply, addf_apply, dot256_apply, dot256_apply, bias1_apply, Cert.Spec.headK_apply]
  unfold Cert.Spec.headAt
  rw [biasRow1_apply, add_right_comm]

end Cert.RefStages

end
-- ==== Proof.RefValue.lean ====
/-
  The reference's result is the program's function of the ten arguments. Its stages, composed: the joined features
  (the one-hot form, when every time step is a row of the table), their neighbour mean, the dense layer, the
  hidden features' neighbour mean, the head, the flattening. The two neighbour-mean chains are the kernel program's
  own chains, operation for operation.
-/
import proofs.«407131_j35287451304625_1_alg».proof.Proof.RefStages
import proofs.«407131_j35287451304625_1_alg».proof.Proof.Out

set_option maxRecDepth 16384

noncomputable section

namespace Cert.RefValue

open Idealize.ShloMosaic Idealize.ShloMosaic.ValueIdx
open Cert.ReferenceIdeal Cert.ReferenceIdeal.Read

section Means
variable {F : FTy → Type} [FloatOps F]

/-- The reference's first neighbour mean is the named chain, of any feature matrix. -/
theorem mean272_eq (h : FVec F S50000x272 .f32) (x1 : IVec S2x800000 32) :
    Host.divf (Host.scatterAdd scatter_S50000x272_S800000x1_S800000x272_1_0_0_1 (val_main_v19 (F := F)) (val_main_v20 (F := F) x1)
        (Host.gather gather_S50000x272_S800000x1_S800000x272_1_0_n_n_0_1_1272 h (val_main_v17 (F := F) x1))) (val_main_v28 (F := F) x1)
      = Cert.Glue.segMean272 (F := F) h (Cert.Glue.srcOf x1) (Cert.Glue.dstOf x1) := rfl

/-- The reference's second neighbour mean is the named chain, of any feature matrix. -/
theorem mean256_eq (h : FVec F S50000x256 .f32) (x1 : IVec S2x800000 32) :
    Host.divf (Host.scatterAdd scatter_S50000x256_S800000x1_S800000x256_1_0_0_1 (val_main_v46 (F := F)) (val_main_v47 (F := F) x1)
        (Host.gather gather_S50000x256_S800000x1_S800000x256_1_0_n_n_0_1_1256 h (val_main_v44 (F := F) x1))) (val_main_v55 (F := F) x1)
      = Cert.Glue.segMean256 (F := F) h (Cert.Glue.srcOf x1) (Cert.Glue.dstOf x1) := rfl

end Means

/-- The reference's hidden features. -/
theorem hidden_eq (x0 : FVec Ideal S50000x256 .f32) (x1 : IVec S2x800000 32) (x2 : IVec S50000 32) (x3 : FVec Ideal S50x16 .f32) (x4 : FVec Ideal S256x272 .f32) (x5 : FVec Ideal S256 .f32) (x6 : FVec Ideal S256x272 .f32)
    (hts : ∀ r : Fin 50000, 0 ≤ (x2 (ix1 r)).toInt ∧ (x2 (ix1 r)).toInt < 50) :
    val_main_v38 (F := Ideal) x0 x1 x2 x3 x4 x5 x6 = Cert.Out.hiddenOf (Cert.Out.feat x0 x2 x3) x1 x4 x5 x6 := by
  unfold val_main_v38 val_main_v37 val_main_v34 val_main_v31 val_main_v36
  rw [Cert.RefStages.dense_eq]
  unfold val_main_v29 val_main_v21 val_main_v18
  rw [mean272_eq, Cert.RefStages.feat_eq x0 x2 x3 hts]
  rfl

/-- THE REFERENCE'S RESULT. -/
theorem result_eq (x0 : FVec Ideal S50000x256 .f32) (x1 : IVec S2x800000 32) (x2 : IVec S50000 32) (x3 : FVec Ideal S50x16 .f32) (x4 : FVec Ideal S256x272 .f32) (x5 : FVec Ideal S256 .f32) (x6 : FVec Ideal S256x272 .f32) (x7 : FVec Ideal S1x256 .f32) (x8 : FVec Ideal S1 .f32) (x9 : FVec Ideal S1x256 .f32)
    (hts : ∀ r : Fin 50000, 0 ≤ (x2 (ix1 r)).toInt ∧ (x2 (ix1 r)).toInt < 50) :
    val_main_v65 (F := Ideal) x0 x1 x2 x3 x4 x5 x6 x7 x8 x9 = Cert.Out.result x0 x1 x2 x3 x4 x5 x6 x7 x8 x9 := by
  unfold val_main_v65 val_main_v64 val_main_v61 val_main_v58 val_main_v63
  rw [Cert.RefStages.head_eq]
  unfold val_main_v56 val_main_v48 val_main_v45
  rw [mean256_eq, hidden_eq x0 x1 x2 x3 x4 x5 x6 hts]
  rfl

end Cert.RefValue

end
-- ==== Proof.PreRange.lean ====
/-
  What the precondition says of the time steps. The printed predicate is a conjunction, by word-level "and", of one
  "all" per input; its last two conjuncts are jnp.all(timesteps ≥ 0) and jnp.all(timesteps < 50), compared as signed
  32-bit words. When the predicate is 1, each "all" is 1, so each compared element is 1, which says of the word at
  index r that, read as a signed integer, it lies in [0, 50).
-/
import proofs.«407131_j35287451304625_1_alg».proof.Pre_finite_inputs
import Idealize.ShloMosaic.Lib.ReduceAll
import Idealize.ShloMosaic.Lib.IdealHost
import Idealize.ShloMosaic.Lib.ValueIdx

noncomputable section

namespace Cert.PreRange

open Idealize.ShloMosaic Idealize.ShloMosaic.ValueIdx
open Cert.Pre_finite_inputs Cert.Pre_finite_inputs.Facts

instance : Subsingleton S_.Idx := ⟨fun a b => funext fun d => d.elim0⟩

variable [Facts] {F : FTy → Type} [FloatOps F]

/-- Every time step is a row of the 50-row table, when the precondition holds. -/
theorem ts_range (a0 : FVec F S50000x256 .f32) (a1 : IVec S2x800000 32) (a2 : IVec S50000 32) (a3 : FVec F S50x16 .f32)
    (a4 : FVec F S256x272 .f32) (a5 : FVec F S256 .f32) (a6 : FVec F S256x272 .f32) (a7 : FVec F S1x256 .f32)
    (a8 : FVec F S1 .f32) (a9 : FVec F S1x256 .f32)
    (h : fn (F := F) a0 a1 a2 a3 a4 a5 a6 a7 a8 a9 = fun _ => 1#1) (r : Fin 50000) :
    0 ≤ (a2 (ix1 r)).toInt ∧ (a2 (ix1 r)).toInt < 50 := by
  have h0 := congrFun h ix0
  dsimp only [fn, fn_part1, fn_part2] at h0
  obtain ⟨h42, h45⟩ := IntOp.andi_eq_one.1 h0
  obtain ⟨-, h41⟩ := IntOp.andi_eq_one.1 h42
  have hge := Host.reduce_andi_all _ _ _ _ _ h41 (ix1 r)
  have hlt := Host.reduce_andi_all _ _ _ _ _ h45 (ix1 r)
  have hge' := IntOp.cmpi_sge.1 hge
  have hlt' := IntOp.cmpi_slt.1 hlt
  rw [broadcastInDim_scalar_apply] at hge' hlt'
  constructor
  · exact hge'
  · exact hlt'

end Cert.PreRange

end
-- ==== Proof.lean ====
/-
  Equivalence over the extended reals of a three-kernel graph network against its plain reference.

  The program joins each node's 256 features with a 16-entry embedding of its time step (a one-hot row times the
  50-row table, in a first kernel), averages the joined features over each node's incoming edges, applies a dense
  layer with a rectifier (a second kernel: two matrix products into a zero accumulator, a bias row), averages again,
  and applies a scalar head (a third kernel). The reference takes the table's rows by indexing, and adds the bias
  between its two products. Read at exact extended reals the two agree:
    * a one-hot row times the table is the indexed row, when the time step is one of the table's 50 rows — the
      precondition says so of every node (outside that range the reference indexes past the table);
    * a change of float format is the identity, a matrix product into zeros is the plain sum, and
      (A + b) + B = (A + B) + b in any commutative monoid, so no entry needs to be finite;
    * the neighbour mean is the same chain of operations in both programs, applied to equal arguments.
  The kernel side reads the result buffer back through the program's seven segments (Walk), each kernel's output
  array being one whole-array function of the arrays it was entered with (Region0, Region1, Region2); the
  reference side composes its stages (RefValue). Both meet in one function of the ten arguments (Out.result).
-/
import proofs.«407131_j35287451304625_1_alg».proof.Defs
import proofs.«407131_j35287451304625_1_alg».proof.Proof.Gen.Kernel
import proofs.«407131_j35287451304625_1_alg».proof.Proof.Gen.Kernel.Skeleton
import proofs.«407131_j35287451304625_1_alg».proof.Proof.KernelLaunch
import proofs.«407131_j35287451304625_1_alg».proof.Proof.Gen.Kernel.Points
import proofs.«407131_j35287451304625_1_alg».proof.Proof.KernelFrame
import proofs.«407131_j35287451304625_1_alg».proof.Proof.Gen.KernelIdeal
import proofs.«407131_j35287451304625_1_alg».proof.Proof.Gen.KernelIdeal.Skeleton
import proofs.«407131_j35287451304625_1_alg».proof.Proof.KernelIdealLaunch
import proofs.«407131_j35287451304625_1_alg».proof.Proof.Gen.KernelIdeal.Points
import proofs.«407131_j35287451304625_1_alg».proof.Proof.KernelIdealFrame
import proofs.«407131_j35287451304625_1_alg».proof.Proof.Gen.ReferenceIdeal
import proofs.«407131_j35287451304625_1_alg».proof.Proof.Gen.Pre_finite_inputs
import proofs.«407131_j35287451304625_1_alg».proof.Proof.Gen.ReferenceIdeal.Run
import proofs.«407131_j35287451304625_1_alg».proof.Proof.Gen.ReferenceIdeal.Read
import proofs.«407131_j35287451304625_1_alg».proof.Proof.KernelIdealRun
import proofs.«407131_j35287451304625_1_alg».proof.Proof.Walk
import proofs.«407131_j35287451304625_1_alg».proof.Proof.RefValue
import proofs.«407131_j35287451304625_1_alg».proof.Proof.PreRange
import Idealize.ShloMosaic.Adequacy
import Idealize.ShloMosaic.Init

noncomputable section

namespace Cert.Proof

open Idealize.ShloMosaic Idealize.SL.Sem

/-- The word-level program terminates without a fault and leaves its arguments as launched. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the ten arguments, under the precondition, both programs end with the result
    `Out.result` of the arguments: the kernel program by the walk through its segments, the reference by its stages,
    the time steps in range by the precondition. -/
theorem algebraic : Cert.algebraic_KernelIdeal_ReferenceIdeal := by
  intro m ρ m' ρ' hpre hagree
  refine ⟨fun c => Cert.Out.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Walk.result m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v65_eq]
    obtain ⟨e0, e1, e2, e3, e4, e5, e6, e7, e8, e9⟩ := hagree c
    rw [e0, e1, e2, e3, e4, e5, e6, e7, e8, e9]
    exact Cert.RefValue.result_eq _ _ _ _ _ _ _ _ _ _
      (fun r => Cert.PreRange.ts_range (F := Ideal) _ _ _ _ _ _ _ _ _ _ (hpre c) r)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
